-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x128 : Shape := ⟨3, ![256, 128, 128]⟩
abbrev S25x16384 : Shape := ⟨2, ![25, 16384]⟩
abbrev S256 : Shape := ⟨1, ![256]⟩
abbrev S_ : Shape := ⟨0, ![]⟩

class Facts : Prop where
  bcast_S_S256x128x128 : S_.BroadcastsInDim S256x128x128 (![] : Fin 0 → Fin S256x128x128.rank)
  reducesTo_S256x128x128_S_d0_1_2 : S256x128x128.ReducesTo [0, 1, 2] S_
  h_S_ : 0 < S_.numel
  bcast_S_S25x16384 : S_.BroadcastsInDim S25x16384 (![] : Fin 0 → Fin S25x16384.rank)
  reducesTo_S25x16384_S_d0_1 : S25x16384.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S256x128x128 .f32) (main_arg1 : FVec F S25x16384 .f32) (main_arg2 : FVec F S256 .f32) : IVec S_ 1 :=
  let main_v0 : FVec F S256x128x128 .f32 := Host.absf main_arg0
  let main_cst : FVec F S_ .f32 := constant S_ .f32 0x7F800000#32
  let main_v1 : FVec F S256x128x128 .f32 := broadcastInDim S256x128x128 ![] bcast_S_S256x128x128 main_cst
  let main_v2 : IVec S256x128x128 1 := cmpf .olt main_v0 main_v1
  let main_c : IVec S_ 1 := constantI S_ 1 1#1
  let main_v3 : IVec S_ 1 := (fun x v => Host.reduce IntOp.andi x v reducesTo_S256x128x128_S_d0_1_2 h_S_) main_v2 main_c
  let main_v4 : FVec F S25x16384 .f32 := Host.absf main_arg1
  let main_cst_0 : FVec F S_ .f32 := constant S_ .f32 0x7F800000#32
  let main_v5 : FVec F S25x16384 .f32 := broadcastInDim S25x16384 ![] bcast_S_S25x16384 main_cst_0
  let main_v6 : IVec S25x16384 1 := cmpf .olt main_v4 main_v5
  let main_c_1 : IVec S_ 1 := constantI S_ 1 1#1
  let main_v7 : IVec S_ 1 := (fun x v => Host.reduce IntOp.andi x v reducesTo_S25x16384_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S256x128x128 : Shape := ⟨3, ![256, 128, 128]⟩
abbrev S25x16384 : Shape := ⟨2, ![25, 16384]⟩
abbrev S256 : Shape := ⟨1, ![256]⟩
abbrev S_ : Shape := ⟨0, ![]⟩
abbrev S256x132x132 : Shape := ⟨3, ![256, 132, 132]⟩
abbrev S25x128x128 : Shape := ⟨3, ![25, 128, 128]⟩
abbrev S256x1 : Shape := ⟨2, ![256, 1]⟩
abbrev S64x132x132 : Shape := ⟨3, ![64, 132, 132]⟩
abbrev S64x1 : Shape := ⟨2, ![64, 1]⟩
abbrev S64x128x128 : Shape := ⟨3, ![64, 128, 128]⟩
abbrev S1x128x128 : Shape := ⟨3, ![1, 128, 128]⟩
abbrev S128x128 : Shape := ⟨2, ![128, 128]⟩
abbrev S64x1x1 : Shape := ⟨3, ![64, 1, 1]⟩

abbrev nBuf : Space → Nat
  | .hbm => 9
  | .vmem => 7
  | .smem => 0
  | _ => 0

abbrev bufTy : (tb : Table) → Fin (tcTables nBuf tb) → BufTy
  | .hbm, ⟨0, _⟩ => ⟨S256x128x128, .f32⟩
  | .hbm, ⟨1, _⟩ => ⟨S25x16384, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S256x132x132, .f32⟩
  | .hbm, ⟨6, _⟩ => ⟨S25x128x128, .f32⟩
  | .hbm, ⟨7, _⟩ => ⟨S256x1, .f32⟩
  | .hbm, ⟨8, _⟩ => ⟨S256x128x128, .f32⟩
  | .local _ .vmem, ⟨0, _⟩ => ⟨S64x132x132, .f32⟩
  | .local _ .vmem, ⟨1, _⟩ => ⟨S64x132x132, .f32⟩
  | .local _ .vmem, ⟨2, _⟩ => ⟨S25x128x128, .f32⟩
  | .local _ .vmem, ⟨3, _⟩ => ⟨S64x1, .f32⟩
  | .local _ .vmem, ⟨4, _⟩ => ⟨S64x1, .f32⟩
  | .local _ .vmem, ⟨5, _⟩ => ⟨S64x128x128, .f32⟩
  | .local _ .vmem, ⟨6, _⟩ => ⟨S64x128x128, .f32⟩
  | _, _ => ⟨S256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x132x132 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S256x128x128_S256x132x132_000_220_220 : S256x128x128.Pads (![0, 2, 2] : Fin 3 → Nat) ![0, 2, 2] ![0, 0, 0] S256x132x132
  h_S_ : 0 < S_.numel
  shapeCasts_S25x16384_S25x128x128 : S25x16384.ShapeCasts S25x128x128
  shapeCasts_S256_S256x1 : S256.ShapeCasts S256x1
  inb_S64x132x132_S64x132x132_0_0_0 : ∀ a, (![0, 0, 0] : Fin 3 → Nat) a + S64x132x132.size a ≤ S64x132x132.size a
  h_S64x132x132 : 0 < S64x132x132.numel
  shapeCasts_S64x132x132_S64x132x132 : S64x132x132.ShapeCasts S64x132x132
  slices_S64x132x132_o0_2_2_S64x128x128 : S64x132x132.Slices ![0, 2, 2] S64x128x128
  inb_S25x128x128_S1x128x128_0_0_0 : ∀ a, (![0, 0, 0] : Fin 3 → Nat) a + S1x128x128.size a ≤ S25x128x128.size a
  h_S1x128x128 : 0 < S1x128x128.numel
  shapeCasts_S1x128x128_S128x128 : S1x128x128.ShapeCasts S128x128
  slices_S64x132x132_o0_0_0_S64x128x128 : S64x132x132.Slices ![0, 0, 0] S64x128x128
  shapeCasts_S128x128_S1x128x128 : S128x128.ShapeCasts S1x128x128
  broadcasts_S1x128x128_S64x128x128 : S1x128x128.Broadcasts S64x128x128
  inb_S25x128x128_S1x128x128_1_0_0 : ∀ a, (![1, 0, 0] : Fin 3 → Nat) a + S1x128x128.size a ≤ S25x128x128.size a
  slices_S64x132x132_o0_0_1_S64x128x128 : S64x132x132.Slices ![0, 0, 1] S64x128x128
  inb_S25x128x128_S1x128x128_2_0_0 : ∀ a, (![2, 0, 0] : Fin 3 → Nat) a + S1x128x128.size a ≤ S25x128x128.size a
  slices_S64x132x132_o0_0_2_S64x128x128 : S64x132x132.Slices ![0, 0, 2] S64x128x128
  inb_S25x128x128_S1x128x128_3_0_0 : ∀ a, (![3, 0, 0] : Fin 3 → Nat) a + S1x128x128.size a ≤ S25x128x128.size a
  slices_S64x132x132_o0_0_3_S64x128x128 : S64x132x132.Slices ![0, 0, 3] S64x128x128
  inb_S25x128x128_S1x128x128_4_0_0 : ∀ a, (![4, 0, 0] : Fin 3 → Nat) a + S1x128x128.size a ≤ S25x128x128.size a
  slices_S64x132x132_o0_0_4_S64x128x128 : S64x132x132.Slices ![0, 0, 4] S64x128x128
  inb_S25x128x128_S1x128x128_5_0_0 : ∀ a, (![5, 0, 0] : Fin 3 → Nat) a + S1x128x128.size a ≤ S25x128x128.size a
  slices_S64x132x132_o0_1_0_S64x128x128 : S64x132x132.Slices ![0, 1, 0] S64x128x128
  inb_S25x128x128_S1x128x128_6_0_0 : ∀ a, (![6, 0, 0] : Fin 3 → Nat) a + S1x128x128.size a ≤ S25x128x128.size a
  slices_S64x132x132_o0_1_1_S64x128x128 : S64x132x132.Slices ![0, 1, 1] S64x128x128
  inb_S25x128x128_S1x128x128_7_0_0 : ∀ a, (![7, 0, 0] : Fin 3 → Nat) a + S1x128x128.size a ≤ S25x128x128.size a
  slices_S64x132x132_o0_1_2_S64x128x128 : S64x132x132.Slices ![0, 1, 2] S64x128x128
  inb_S25x128x128_S1x128x128_8_0_0 : ∀ a, (![8, 0, 0] : Fin 3 → Nat) a + S1x128x128.size a ≤ S25x128x128.size a
  slices_S64x132x132_o0_1_3_S64x128x128 : S64x132x132.Slices ![0, 1, 3] S64x128x128
  inb_S25x128x128_S1x128x128_9_0_0 : ∀ a, (![9, 0, 0] : Fin 3 → Nat) a + S1x128x128.size a ≤ S25x128x128.size a
  slices_S64x132x132_o0_1_4_S64x128x128 : S64x132x132.Slices ![0, 1, 4] S64x128x128
  inb_S25x128x128_S1x128x128_10_0_0 : ∀ a, (![10, 0, 0] : Fin 3 → Nat) a + S1x128x128.size a ≤ S25x128x128.size a
  slices_S64x132x132_o0_2_0_S64x128x128 : S64x132x132.Slices ![0, 2, 0] S64x128x128
  inb_S25x128x128_S1x128x128_11_0_0 : ∀ a, (![11, 0, 0] : Fin 3 → Nat) a + S1x128x128.size a ≤ S25x128x128.size a
  slices_S64x132x132_o0_2_1_S64x128x128 : S64x132x132.Slices ![0, 2, 1] S64x128x128
  inb_S25x128x128_S1x128x128_12_0_0 : ∀ a, (![12, 0, 0] : Fin 3 → Nat) a + S1x128x128.size a ≤ S25x128x128.size a
  inb_S25x128x128_S1x128x128_13_0_0 : ∀ a, (![13, 0, 0] : Fin 3 → Nat) a + S1x128x128.size a ≤ S25x128x128.size a
  slices_S64x132x132_o0_2_3_S64x128x128 : S64x132x132.Slices ![0, 2, 3] S64x128x128
  inb_S25x128x128_S1x128x128_14_0_0 : ∀ a, (![14, 0, 0] : Fin 3 → Nat) a + S1x128x128.size a ≤ S25x128x128.size a
  slices_S64x132x132_o0_2_4_S64x128x128 : S64x132x132.Slices ![0, 2, 4] S64x128x128
  inb_S25x128x128_S1x128x128_15_0_0 : ∀ a, (![15, 0, 0] : Fin 3 → Nat) a + S1x128x128.size a ≤ S25x128x128.size a
  slices_S64x132x132_o0_3_0_S64x128x128 : S64x132x132.Slices ![0, 3, 0] S64x128x128
  inb_S25x128x128_S1x128x128_16_0_0 : ∀ a, (![16, 0, 0] : Fin 3 → Nat) a + S1x128x128.size a ≤ S25x128x128.size a
  slices_S64x132x132_o0_3_1_S64x128x128 : S64x132x132.Slices ![0, 3, 1] S64x128x128
  inb_S25x128x128_S1x128x128_17_0_0 : ∀ a, (![17, 0, 0] : Fin 3 → Nat) a + S1x128x128.size a ≤ S25x128x128.size a
  slices_S64x132x132_o0_3_2_S64x128x128 : S64x132x132.Slices ![0, 3, 2] S64x128x128
  inb_S25x128x128_S1x128x128_18_0_0 : ∀ a, (![18, 0, 0] : Fin 3 → Nat) a + S1x128x128.size a ≤ S25x128x128.size a
  slices_S64x132x132_o0_3_3_S64x128x128 : S64x132x132.Slices ![0, 3, 3] S64x128x128
  inb_S25x128x128_S1x128x128_19_0_0 : ∀ a, (![19, 0, 0] : Fin 3 → Nat) a + S1x128x128.size a ≤ S25x128x128.size a
  slices_S64x132x132_o0_3_4_S64x128x128 : S64x132x132.Slices ![0, 3, 4] S64x128x128
  inb_S25x128x128_S1x128x128_20_0_0 : ∀ a, (![20, 0, 0] : Fin 3 → Nat) a + S1x128x128.size a ≤ S25x128x128.size a
  slices_S64x132x132_o0_4_0_S64x128x128 : S64x132x132.Slices ![0, 4, 0] S64x128x128
  inb_S25x128x128_S1x128x128_21_0_0 : ∀ a, (![21, 0, 0] : Fin 3 → Nat) a + S1x128x128.size a ≤ S25x128x128.size a
  slices_S64x132x132_o0_4_1_S64x128x128 : S64x132x132.Slices ![0, 4, 1] S64x128x128
  inb_S25x128x128_S1x128x128_22_0_0 : ∀ a, (![22, 0, 0] : Fin 3 → Nat) a + S1x128x128.size a ≤ S25x128x128.size a
  slices_S64x132x132_o0_4_2_S64x128x128 : S64x132x132.Slices ![0, 4, 2] S64x128x128
  inb_S25x128x128_S1x128x128_23_0_0 : ∀ a, (![23, 0, 0] : Fin 3 → Nat) a + S1x128x128.size a ≤ S25x128x128.size a
  slices_S64x132x132_o0_4_3_S64x128x128 : S64x132x132.Slices ![0, 4, 3] S64x128x128
  inb_S25x128x128_S1x128x128_24_0_0 : ∀ a, (![24, 0, 0] : Fin 3 → Nat) a + S1x128x128.size a ≤ S25x128x128.size a
  slices_S64x132x132_o0_4_4_S64x128x128 : S64x132x132.Slices ![0, 4, 4] S64x128x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x1_S64x1x1 : S64x1.ShapeCasts S64x1x1
  broadcasts_S64x1x1_S64x128x128 : S64x1x1.Broadcasts S64x128x128
  inb_S64x128x128_S64x128x128_0_0_0 : ∀ a, (![0, 0, 0] : Fin 3 → Nat) a + S64x128x128.size a ≤ S64x128x128.size a
  h_S64x128x128 : 0 < S64x128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x132x132.size a ≤ S256x132x132.size a
  hwx0_0 : ∀ i : grid0.Coords, EltTy.bits .f32 = 32 ∨ (Rect.block (s := S256x132x132) S64x132x132.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x128x128.size a ≤ S25x128x128.size a
  hwx0_1 : ∀ i : grid0.Coords, EltTy.bits .f32 = 32 ∨ (Rect.block (s := S25x128x128) S25x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S256x1.size a
  hwx0_2 : ∀ i : grid0.Coords, EltTy.bits .f32 = 32 ∨ (Rect.block (s := S256x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128x128.size a ≤ S256x128x128.size a
  hwx0_3 : ∀ i : grid0.Coords, EltTy.bits .f32 = 32 ∨ (Rect.block (s := S256x128x128) S64x128x128.size (cc0_transform_3 i) (hinb0_3 i)).WholeWords (EltTy.packing .f32)

variable [Facts₀]

abbrev win0_0 : Pipeline.Window sig grid0 :=
  Pipeline.Window.ofSpec (Memref.whole main_v0) S64x132x132.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S25x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x128x128 : Shape := ⟨3, ![256, 128, 128]⟩
abbrev S25x16384 : Shape := ⟨2, ![25, 16384]⟩
abbrev S256 : Shape := ⟨1, ![256]⟩
abbrev S_ : Shape := ⟨0, ![]⟩
abbrev S256x132x132 : Shape := ⟨3, ![256, 132, 132]⟩
abbrev S5x5x128x128 : Shape := ⟨4, ![5, 5, 128, 128]⟩
abbrev S1x1x128x128 : Shape := ⟨4, ![1, 1, 128, 128]⟩
abbrev S128x128 : Shape := ⟨2, ![128, 128]⟩
abbrev S1x128x128 : Shape := ⟨3, ![1, 128, 128]⟩
abbrev S256x1x1 : Shape := ⟨3, ![256, 1, 1]⟩

abbrev nBuf : Space → Nat
  | .hbm => 191
  | .vmem => 0
  | .smem => 0
  | _ => 0

abbrev hbmTy0_0 (i : Nat) : BufTy := match i % 128 with
  | 0 => ⟨S256x128x128, .f32⟩
  | 1 => ⟨S25x16384, .f32⟩
  | 2 => ⟨S256, .f32⟩
  | 3 => ⟨S_, .i32⟩
  | 4 => ⟨S_, .f32⟩
  | 5 => ⟨S256x132x132, .f32⟩
  | 6 => ⟨S5x5x128x128, .f32⟩
  | 7 => ⟨S_, .f32⟩
  | 8 => ⟨S256x128x128, .f32⟩
  | 9 => ⟨S256x128x128, .f32⟩
  | 10 => ⟨S1x1x128x128, .f32⟩
  | 11 => ⟨S128x128, .f32⟩
  | 12 => ⟨S1x128x128, .f32⟩
  | 13 => ⟨S256x128x128, .f32⟩
  | 14 => ⟨S256x128x128, .f32⟩
  | 15 => ⟨S256x128x128, .f32⟩
  | 16 => ⟨S256x128x128, .f32⟩
  | 17 => ⟨S1x1x128x128, .f32⟩
  | 18 => ⟨S128x128, .f32⟩
  | 19 => ⟨S1x128x128, .f32⟩
  | 20 => ⟨S256x128x128, .f32⟩
  | 21 => ⟨S256x128x128, .f32⟩
  | 22 => ⟨S256x128x128, .f32⟩
  | 23 => ⟨S256x128x128, .f32⟩
  | 24 => ⟨S1x1x128x128, .f32⟩
  | 25 => ⟨S128x128, .f32⟩
  | 26 => ⟨S1x128x128, .f32⟩
  | 27 => ⟨S256x128x128, .f32⟩
  | 28 => ⟨S256x128x128, .f32⟩
  | 29 => ⟨S256x128x128, .f32⟩
  | 30 => ⟨S256x128x128, .f32⟩
  | 31 => ⟨S1x1x128x128, .f32⟩
  | 32 => ⟨S128x128, .f32⟩
  | 33 => ⟨S1x128x128, .f32⟩
  | 34 => ⟨S256x128x128, .f32⟩
  | 35 => ⟨S256x128x128, .f32⟩
  | 36 => ⟨S256x128x128, .f32⟩
  | 37 => ⟨S256x128x128, .f32⟩
  | 38 => ⟨S1x1x128x128, .f32⟩
  | 39 => ⟨S128x128, .f32⟩
  | 40 => ⟨S1x128x128, .f32⟩
  | 41 => ⟨S256x128x128, .f32⟩
  | 42 => ⟨S256x128x128, .f32⟩
  | 43 => ⟨S256x128x128, .f32⟩
  | 44 => ⟨S256x128x128, .f32⟩
  | 45 => ⟨S1x1x128x128, .f32⟩
  | 46 => ⟨S128x128, .f32⟩
  | 47 => ⟨S1x128x128, .f32⟩
  | 48 => ⟨S256x128x128, .f32⟩
  | 49 => ⟨S256x128x128, .f32⟩
  | 50 => ⟨S256x128x128, .f32⟩
  | 51 => ⟨S256x128x128, .f32⟩
  | 52 => ⟨S1x1x128x128, .f32⟩
  | 53 => ⟨S128x128, .f32⟩
  | 54 => ⟨S1x128x128, .f32⟩
  | 55 => ⟨S256x128x128, .f32⟩
  | 56 => ⟨S256x128x128, .f32⟩
  | 57 => ⟨S256x128x128, .f32⟩
  | 58 => ⟨S256x128x128, .f32⟩
  | 59 => ⟨S1x1x128x128, .f32⟩
  | 60 => ⟨S128x128, .f32⟩
  | 61 => ⟨S1x128x128, .f32⟩
  | 62 => ⟨S256x128x128, .f32⟩
  | 63 => ⟨S256x128x128, .f32⟩
  | 64 => ⟨S256x128x128, .f32⟩
  | 65 => ⟨S256x128x128, .f32⟩
  | 66 => ⟨S1x1x128x128, .f32⟩
  | 67 => ⟨S128x128, .f32⟩
  | 68 => ⟨S1x128x128, .f32⟩
  | 69 => ⟨S256x128x128, .f32⟩
  | 70 => ⟨S256x128x128, .f32⟩
  | 71 => ⟨S256x128x128, .f32⟩
  | 72 => ⟨S256x128x128, .f32⟩
  | 73 => ⟨S1x1x128x128, .f32⟩
  | 74 => ⟨S128x128, .f32⟩
  | 75 => ⟨S1x128x128, .f32⟩
  | 76 => ⟨S256x128x128, .f32⟩
  | 77 => ⟨S256x128x128, .f32⟩
  | 78 => ⟨S256x128x128, .f32⟩
  | 79 => ⟨S256x128x128, .f32⟩
  | 80 => ⟨S1x1x128x128, .f32⟩
  | 81 => ⟨S128x128, .f32⟩
  | 82 => ⟨S1x128x128, .f32⟩
  | 83 => ⟨S256x128x128, .f32⟩
  | 84 => ⟨S256x128x128, .f32⟩
  | 85 => ⟨S256x128x128, .f32⟩
  | 86 => ⟨S256x128x128, .f32⟩
  | 87 => ⟨S1x1x128x128, .f32⟩
  | 88 => ⟨S128x128, .f32⟩
  | 89 => ⟨S1x128x128, .f32⟩
  | 90 => ⟨S256x128x128, .f32⟩
  | 91 => ⟨S256x128x128, .f32⟩
  | 92 => ⟨S256x128x128, .f32⟩
  | 93 => ⟨S256x128x128, .f32⟩
  | 94 => ⟨S1x1x128x128, .f32⟩
  | 95 => ⟨S128x128, .f32⟩
  | 96 => ⟨S1x128x128, .f32⟩
  | 97 => ⟨S256x128x128, .f32⟩
  | 98 => ⟨S256x128x128, .f32⟩
  | 99 => ⟨S256x128x128, .f32⟩
  | 100 => ⟨S256x128x128, .f32⟩
  | 101 => ⟨S1x1x128x128, .f32⟩
  | 102 => ⟨S128x128, .f32⟩
  | 103 => ⟨S1x128x128, .f32⟩
  | 104 => ⟨S256x128x128, .f32⟩
  | 105 => ⟨S256x128x128, .f32⟩
  | 106 => ⟨S256x128x128, .f32⟩
  | 107 => ⟨S256x128x128, .f32⟩
  | 108 => ⟨S1x1x128x128, .f32⟩
  | 109 => ⟨S128x128, .f32⟩
  | 110 => ⟨S1x128x128, .f32⟩
  | 111 => ⟨S256x128x128, .f32⟩
  | 112 => ⟨S256x128x128, .f32⟩
  | 113 => ⟨S256x128x128, .f32⟩
  | 114 => ⟨S256x128x128, .f32⟩
  | 115 => ⟨S1x1x128x128, .f32⟩
  | 116 => ⟨S128x128, .f32⟩
  | 117 => ⟨S1x128x128, .f32⟩
  | 118 => ⟨S256x128x128, .f32⟩
  | 119 => ⟨S256x128x128, .f32⟩
  | 120 => ⟨S256x128x128, .f32⟩
  | 121 => ⟨S256x128x128, .f32⟩
  | 122 => ⟨S1x1x128x128, .f32⟩
  | 123 => ⟨S128x128, .f32⟩
  | 124 => ⟨S1x128x128, .f32⟩
  | 125 => ⟨S256x128x128, .f32⟩
  | 126 => ⟨S256x128x128, .f32⟩
  | 127 => ⟨S256x128x128, .f32⟩
  | _ => ⟨S256x128x128, .f32⟩

abbrev hbmTy0_1 (i : Nat) : BufTy := match i % 128 with
  | 0 => ⟨S256x128x128, .f32⟩
  | 1 => ⟨S1x1x128x128, .f32⟩
  | 2 => ⟨S128x128, .f32⟩
  | 3 => ⟨S1x128x128, .f32⟩
  | 4 => ⟨S256x128x128, .f32⟩
  | 5 => ⟨S256x128x128, .f32⟩
  | 6 => ⟨S256x128x128, .f32⟩
  | 7 => ⟨S256x128x128, .f32⟩
  | 8 => ⟨S1x1x128x128, .f32⟩
  | 9 => ⟨S128x128, .f32⟩
  | 10 => ⟨S1x128x128, .f32⟩
  | 11 => ⟨S256x128x128, .f32⟩
  | 12 => ⟨S256x128x128, .f32⟩
  | 13 => ⟨S256x128x128, .f32⟩
  | 14 => ⟨S256x128x128, .f32⟩
  | 15 => ⟨S1x1x128x128, .f32⟩
  | 16 => ⟨S128x128, .f32⟩
  | 17 => ⟨S1x128x128, .f32⟩
  | 18 => ⟨S256x128x128, .f32⟩
  | 19 => ⟨S256x128x128, .f32⟩
  | 20 => ⟨S256x128x128, .f32⟩
  | 21 => ⟨S256x128x128, .f32⟩
  | 22 => ⟨S1x1x128x128, .f32⟩
  | 23 => ⟨S128x128, .f32⟩
  | 24 => ⟨S1x128x128, .f32⟩
  | 25 => ⟨S256x128x128, .f32⟩
  | 26 => ⟨S256x128x128, .f32⟩
  | 27 => ⟨S256x128x128, .f32⟩
  | 28 => ⟨S256x128x128, .f32⟩
  | 29 => ⟨S1x1x128x128, .f32⟩
  | 30 => ⟨S128x128, .f32⟩
  | 31 => ⟨S1x128x128, .f32⟩
  | 32 => ⟨S256x128x128, .f32⟩
  | 33 => ⟨S256x128x128, .f32⟩
  | 34 => ⟨S256x128x128, .f32⟩
  | 35 => ⟨S256x128x128, .f32⟩
  | 36 => ⟨S1x1x128x128, .f32⟩
  | 37 => ⟨S128x128, .f32⟩
  | 38 => ⟨S1x128x128, .f32⟩
  | 39 => ⟨S256x128x128, .f32⟩
  | 40 => ⟨S256x128x128, .f32⟩
  | 41 => ⟨S256x128x128, .f32⟩
  | 42 => ⟨S256x128x128, .f32⟩
  | 43 => ⟨S1x1x128x128, .f32⟩
  | 44 => ⟨S128x128, .f32⟩
  | 45 => ⟨S1x128x128, .f32⟩
  | 46 => ⟨S256x128x128, .f32⟩
  | 47 => ⟨S256x128x128, .f32⟩
  | 48 => ⟨S256x128x128, .f32⟩
  | 49 => ⟨S256x128x128, .f32⟩
  | 50 => ⟨S1x1x128x128, .f32⟩
  | 51 => ⟨S128x128, .f32⟩
  | 52 => ⟨S1x128x128, .f32⟩
  | 53 => ⟨S256x128x128, .f32⟩
  | 54 => ⟨S256x128x128, .f32⟩
  | 55 => ⟨S256x128x128, .f32⟩
  | 56 => ⟨S256x1x1, .f32⟩
  | 57 => ⟨S256x128x128, .f32⟩
  | 58 => ⟨S256x128x128, .f32⟩
  | 59 => ⟨S256x128x128, .f32⟩
  | 60 => ⟨S_, .f32⟩
  | 61 => ⟨S256x128x128, .f32⟩
  | 62 => ⟨S256x128x128, .f32⟩
  | _ => ⟨S256x128x128, .f32⟩

abbrev hbmTy (i : Nat) : BufTy := match i / 128 with
  | 0 => hbmTy0_0 i
  | 1 => hbmTy0_1 i
  | _ => ⟨S256x128x128, .f32⟩

abbrev bufTy : (tb : Table) → Fin (tcTables nBuf tb) → BufTy
  | .hbm, ⟨i, _⟩ => hbmTy i
  | _, _ => ⟨S256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_cst_0 : Ref sig .tc := ⟨.hbm, 188, rfl⟩
abbrev main_v182 : Ref sig .tc := ⟨.hbm, 189, rfl⟩
abbrev main_v183 : Ref sig .tc := ⟨.hbm, 190, rfl⟩

abbrev nD : Nat := 1
abbrev τ : Topo := Topo.v7x

variable {F : FTy → Type} [FloatOps F]

class Facts₀ : Prop where
  pads_S256x128x128_S256x132x132_000_220_220 : S256x128x128.Pads (![0, 2, 2] : Fin 3 → Nat) ![0, 2, 2] ![0, 0, 0] S256x132x132
  h_S_ : 0 < S_.numel
  shapeCasts_S25x16384_S5x5x128x128 : S25x16384.ShapeCasts S5x5x128x128
  bcast_S_S256x128x128 : S_.BroadcastsInDim S256x128x128 (![] : Fin 0 → Fin S256x128x128.rank)
  slices_S256x132x132_S256x128x128_0_0_0 : S256x132x132.Slices ![0, 0, 0] S256x128x128
  slices_S5x5x128x128_S1x1x128x128_0_0_0_0 : S5x5x128x128.Slices ![0, 0, 0, 0] S1x1x128x128
  shapeCasts_S1x1x128x128_S128x128 : S1x1x128x128.ShapeCasts S128x128
  bcast_S128x128_S1x128x128_1_2 : S128x128.BroadcastsInDim S1x128x128 (![1, 2] : Fin 2 → Fin S1x128x128.rank)
  bcast_S1x128x128_S256x128x128_0_1_2 : S1x128x128.BroadcastsInDim S256x128x128 (![0, 1, 2] : Fin 3 → Fin S256x128x128.rank)
  slices_S256x132x132_S256x128x128_0_0_1 : S256x132x132.Slices ![0, 0, 1] S256x128x128
  slices_S5x5x128x128_S1x1x128x128_0_1_0_0 : S5x5x128x128.Slices ![0, 1, 0, 0] S1x1x128x128
  slices_S256x132x132_S256x128x128_0_0_2 : S256x132x132.Slices ![0, 0, 2] S256x128x128
  slices_S5x5x128x128_S1x1x128x128_0_2_0_0 : S5x5x128x128.Slices ![0, 2, 0, 0] S1x1x128x128
  slices_S256x132x132_S256x128x128_0_0_3 : S256x132x132.Slices ![0, 0, 3] S256x128x128
  slices_S5x5x128x128_S1x1x128x128_0_3_0_0 : S5x5x128x128.Slices ![0, 3, 0, 0] S1x1x128x128
  slices_S256x132x132_S256x128x128_0_0_4 : S256x132x132.Slices ![0, 0, 4] S256x128x128
  slices_S5x5x128x128_S1x1x128x128_0_4_0_0 : S5x5x128x128.Slices ![0, 4, 0, 0] S1x1x128x128
  slices_S256x132x132_S256x128x128_0_1_0 : S256x132x132.Slices ![0, 1, 0] S256x128x128
  slices_S5x5x128x128_S1x1x128x128_1_0_0_0 : S5x5x128x128.Slices ![1, 0, 0, 0] S1x1x128x128
  slices_S256x132x132_S256x128x128_0_1_1 : S256x132x132.Slices ![0, 1, 1] S256x128x128
  slices_S5x5x128x128_S1x1x128x128_1_1_0_0 : S5x5x128x128.Slices ![1, 1, 0, 0] S1x1x128x128
  slices_S256x132x132_S256x128x128_0_1_2 : S256x132x132.Slices ![0, 1, 2] S256x128x128
  slices_S5x5x128x128_S1x1x128x128_1_2_0_0 : S5x5x128x128.Slices ![1, 2, 0, 0] S1x1x128x128
  slices_S256x132x132_S256x128x128_0_1_3 : S256x132x132.Slices ![0, 1, 3] S256x128x128
  slices_S5x5x128x128_S1x1x128x128_1_3_0_0 : S5x5x128x128.Slices ![1, 3, 0, 0] S1x1x128x128
  slices_S256x132x132_S256x128x128_0_1_4 : S256x132x132.Slices ![0, 1, 4] S256x128x128
  slices_S5x5x128x128_S1x1x128x128_1_4_0_0 : S5x5x128x128.Slices ![1, 4, 0, 0] S1x1x128x128
  slices_S256x132x132_S256x128x128_0_2_0 : S256x132x132.Slices ![0, 2, 0] S256x128x128
  slices_S5x5x128x128_S1x1x128x128_2_0_0_0 : S5x5x128x128.Slices ![2, 0, 0, 0] S1x1x128x128
  slices_S256x132x132_S256x128x128_0_2_1 : S256x132x132.Slices ![0, 2, 1] S256x128x128
  slices_S5x5x128x128_S1x1x128x128_2_1_0_0 : S5x5x128x128.Slices ![2, 1, 0, 0] S1x1x128x128
  slices_S256x132x132_S256x128x128_0_2_2 : S256x132x132.Slices ![0, 2, 2] S256x128x128
  slices_S5x5x128x128_S1x1x128x128_2_2_0_0 : S5x5x128x128.Slices ![2, 2, 0, 0] S1x1x128x128
  slices_S256x132x132_S256x128x128_0_2_3 : S256x132x132.Slices ![0, 2, 3] S256x128x128
  slices_S5x5x128x128_S1x1x128x128_2_3_0_0 : S5x5x128x128.Slices ![2, 3, 0, 0] S1x1x128x128
  slices_S256x132x132_S256x128x128_0_2_4 : S256x132x132.Slices ![0, 2, 4] S256x128x128
  slices_S5x5x128x128_S1x1x128x128_2_4_0_0 : S5x5x128x128.Slices ![2, 4, 0, 0] S1x1x128x128
  slices_S256x132x132_S256x128x128_0_3_0 : S256x132x132.Slices ![0, 3, 0] S256x128x128
  slices_S5x5x128x128_S1x1x128x128_3_0_0_0 : S5x5x128x128.Slices ![3, 0, 0, 0] S1x1x128x128
  slices_S256x132x132_S256x128x128_0_3_1 : S256x132x132.Slices ![0, 3, 1] S256x128x128
  slices_S5x5x128x128_S1x1x128x128_3_1_0_0 : S5x5x128x128.Slices ![3, 1, 0, 0] S1x1x128x128
  slices_S256x132x132_S256x128x128_0_3_2 : S256x132x132.Slices ![0, 3, 2] S256x128x128
  slices_S5x5x128x128_S1x1x128x128_3_2_0_0 : S5x5x128x128.Slices ![3, 2, 0, 0] S1x1x128x128
  slices_S256x132x132_S256x128x128_0_3_3 : S256x132x132.Slices ![0, 3, 3] S256x128x128
  slices_S5x5x128x128_S1x1x128x128_3_3_0_0 : S5x5x128x128.Slices ![3, 3, 0, 0] S1x1x128x128
  slices_S256x132x132_S256x128x128_0_3_4 : S256x132x132.Slices ![0, 3, 4] S256x128x128
  slices_S5x5x128x128_S1x1x128x128_3_4_0_0 : S5x5x128x128.Slices ![3, 4, 0, 0] S1x1x128x128
  slices_S256x132x132_S256x128x128_0_4_0 : S256x132x132.Slices ![0, 4, 0] S256x128x128
  slices_S5x5x128x128_S1x1x128x128_4_0_0_0 : S5x5x128x128.Slices ![4, 0, 0, 0] S1x1x128x128
  slices_S256x132x132_S256x128x128_0_4_1 : S256x132x132.Slices ![0, 4, 1] S256x128x128
  slices_S5x5x128x128_S1x1x128x128_4_1_0_0 : S5x5x128x128.Slices ![4, 1, 0, 0] S1x1x128x128
  slices_S256x132x132_S256x128x128_0_4_2 : S256x132x132.Slices ![0, 4, 2] S256x128x128
  slices_S5x5x128x128_S1x1x128x128_4_2_0_0 : S5x5x128x128.Slices ![4, 2, 0, 0] S1x1x128x128
  slices_S256x132x132_S256x128x128_0_4_3 : S256x132x132.Slices ![0, 4, 3] S256x128x128
  slices_S5x5x128x128_S1x1x128x128_4_3_0_0 : S5x5x128x128.Slices ![4, 3, 0, 0] S1x1x128x128
  slices_S256x132x132_S256x128x128_0_4_4 : S256x132x132.Slices ![0, 4, 4] S256x128x128
  slices_S5x5x128x128_S1x1x128x128_4_4_0_0 : S5x5x128x128.Slices ![4, 4, 0, 0] S1x1x128x128
  bcast_S256_S256x1x1_0 : S256.BroadcastsInDim S256x1x1 (![0] : Fin 1 → Fin S256x1x1.rank)
  bcast_S256x1x1_S256x128x128_0_1_2 : S256x1x1.BroadcastsInDim S256x128x128 (![0, 1, 2] : Fin 3 → Fin S256x128x128.rank)

variable [Facts₀]

class Facts : Prop extends Facts₀ where

variable [Facts]
-- ==== Proof.Stencil.lean ====
/-
  The mathematics of this certificate, with no program in sight.

  An image `f` of 256 planes of 128 × 128 pixels is advanced by one explicit step of a position-dependent 5 × 5 stencil:
  every pixel `(i, j)` has its OWN 25 weights `K n (i, j)`, `n = 5 d + e`, one for each neighbour `(i + d - 2, j + e - 2)`,
  the image being continued by a border two pixels wide.  With `P` the bordered image (132 × 132 per plane, so that the
  neighbour is `P (i + d, j + e)`),

      out b i j = max (f b i j + (Σ_n P b (i + d_n) (j + e_n) · K n (i, j)) · dt b) 0 .

  Both programs add the 25 products ONE AFTER THE OTHER onto a zero, in the order `n = 0, 1, …, 24`; on the extended reals
  addition is not cancellative, so the sum is kept as that left fold (`accum`) and nothing is regrouped: the two sides then
  agree term by term and no algebraic law, and no finiteness of the inputs, is needed.

  What is proved here, once, for a slice / broadcast / multiply / add step over WHOLE images (the host program's spelling of
  one tap): read at a pixel it adds the one product above (`imageTap_eq`).
-/
import Idealize.ShloMosaic.PureOps.Ideal
import Idealize.ShloMosaic.Lib.ValueIdx
import Idealize.ShloMosaic.Lib.Pipeline.Value

noncomputable section

namespace Cert.Stencil

open Idealize.ShloMosaic Idealize.ShloMosaic.ValueIdx

/-- The images: 256 planes of 128 × 128. -/
abbrev Img : Shape := ⟨3, ![256, 128, 128]⟩
/-- The bordered images: two more rows and columns on every side. -/
abbrev Pad : Shape := ⟨3, ![256, 132, 132]⟩
/-- The weights as given: 25 taps, the pixels of a plane row-major. -/
abbrev Wts : Shape := ⟨2, ![25, 16384]⟩
/-- The weights as the host program views them: tap row, tap column, pixel row, pixel column. -/
abbrev Wts4 : Shape := ⟨4, ![5, 5, 128, 128]⟩
/-- One tap's weights, with its two unit axes. -/
abbrev One4 : Shape := ⟨4, ![1, 1, 128, 128]⟩
/-- One plane, and one plane with a leading unit axis. -/
abbrev Plane : Shape := ⟨2, ![128, 128]⟩
abbrev Plane1 : Shape := ⟨3, ![1, 128, 128]⟩
/-- The time steps, one per plane. -/
abbrev Steps : Shape := ⟨1, ![256]⟩

/-- The zero both programs start the sum from and clamp against (the same word on both sides: never evaluated). -/
abbrev zeroW : EReal := Ideal.ofBits .f32 0x00000000#32

/-! ## The specification -/

/-- The 25 taps in the order they are added: tap `n = 5 d + e` looks `d` rows and `e` columns into the bordered plane. -/
def taps : List (Fin 25 × Fin 5 × Fin 5) :=
  [(0, 0, 0), (1, 0, 1), (2, 0, 2), (3, 0, 3), (4, 0, 4),
   (5, 1, 0), (6, 1, 1), (7, 1, 2), (8, 1, 3), (9, 1, 4),
   (10, 2, 0), (11, 2, 1), (12, 2, 2), (13, 2, 3), (14, 2, 4),
   (15, 3, 0), (16, 3, 1), (17, 3, 2), (18, 3, 3), (19, 3, 4),
   (20, 4, 0), (21, 4, 1), (22, 4, 2), (23, 4, 3), (24, 4, 4)]

/-- The stencil sum at pixel `(i, j)` of a bordered plane `p` with that pixel's weights `k`: the products added one
    after the other onto `z`, in the taps' order. -/
def accum (z : EReal) (p : Fin 132 → Fin 132 → EReal) (k : Fin 25 → EReal) (i j : Fin 128) : EReal :=
  taps.foldl (fun a n => a + p ⟨i.val + n.2.1.val, by have := i.isLt; have := n.2.1.isLt; omega⟩
      ⟨j.val + n.2.2.val, by have := j.isLt; have := n.2.2.isLt; omega⟩ * k n.1) z

/-- One pixel's update: the old value plus the stencil sum times the plane's time step, clamped below at `z`. -/
def pixel (z centre sum step : EReal) : EReal := max (centre + sum * step) z

/-- The position of pixel `(i, j)` among a plane's 16384. -/
abbrev flat (i j : Fin 128) : Fin 16384 := ⟨i.val * 128 + j.val, by have := i.isLt; have := j.isLt; omega⟩

/-- THE RESULT: every pixel of every plane updated, from the image `f`, a bordered image `P`, the weights and the steps. -/
def update (f : Img.Idx → EReal) (P : Pad.Idx → EReal) (K : Wts.Idx → EReal) (dt : Steps.Idx → EReal) : Img.Idx → EReal :=
  fun q => pixel zeroW (f q) (accum zeroW (fun r s => P (ix3 (q 0) r s)) (fun n => K (ix2 n (flat (q 1) (q 2)))) (q 1) (q 2))
    (dt (ix1 (q 0)))

/-! ## One tap, as the host program spells it over whole images

A window of the bordered image shifted `d` rows and `e` columns, times tap `(d, e)`'s plane of weights cut out of the
four-axis view, squeezed to a plane and repeated over the 256 planes, added to what was accumulated. -/

theorem row_lt {d e : ℕ} (hk : Wts4.Slices ![d, e, 0, 0] One4) : d < 5 := by
  have h : d + 1 ≤ 5 := hk.2 0
  omega

theorem col_lt {d e : ℕ} (hk : Wts4.Slices ![d, e, 0, 0] One4) : e < 5 := by
  have h : e + 1 ≤ 5 := hk.2 1
  omega

theorem down_le {d e : ℕ} (hs : Pad.Slices ![0, d, e] Img) : d + 128 ≤ 132 := hs.2 1

theorem right_le {d e : ℕ} (hs : Pad.Slices ![0, d, e] Img) : e + 128 ≤ 132 := hs.2 2

/-- What one tap adds, pixel by pixel: the neighbour `d` rows and `e` columns into the bordered plane times that pixel's
    weight for tap `5 d + e`, found at the pixel's row-major position `128 i + j`. -/
def imageTap (d e : ℕ) (hd : d < 5) (he : e < 5) (P : Pad.Idx → EReal) (K : Wts.Idx → EReal) (acc : Img.Idx → EReal) :
    Img.Idx → EReal :=
  fun q => acc q + P (ix3 (q 0 : Fin 256) ⟨(q 1).val + d, by have : (q 1).val < 128 := (q 1).isLt; omega⟩
      ⟨(q 2).val + e, by have : (q 2).val < 128 := (q 2).isLt; omega⟩)
    * K (ix2 (⟨5 * d + e, by omega⟩ : Fin 25) (flat (q 1) (q 2)))

/-- The host program's slice / squeeze / repeat / multiply / add over whole images IS that pixel-by-pixel step: the
    four-axis view of the weights puts tap `(d, e)` of pixel `(i, j)` at row-major position
    `((5 d + e) · 128 + i) · 128 + j`, which is entry `(5 d + e, 128 i + j)` of the weights as given. -/
theorem imageTap_eq {d e : ℕ} (hs : Pad.Slices ![0, d, e] Img) (hk : Wts4.Slices ![d, e, 0, 0] One4)
    (h0 : Wts.ShapeCasts Wts4) (h1 : One4.ShapeCasts Plane) (h2 : Plane.BroadcastsInDim Plane1 ![1, 2])
    (h3 : Plane1.BroadcastsInDim Img ![0, 1, 2])
    (P : FVec Ideal Pad .f32) (K : FVec Ideal Wts .f32) (acc : FVec Ideal Img .f32) :
    addf acc (mulf (extractStridedSlice Img ![0, d, e] P hs)
      (broadcastInDim Img ![0, 1, 2] h3 (broadcastInDim Plane1 ![1, 2] h2
        (shapeCast Plane (extractStridedSlice One4 ![d, e, 0, 0] (shapeCast Wts4 K h0) hk) h1))))
      = imageTap d e (row_lt hk) (col_lt hk) P K acc := by
  funext q
  obtain ⟨b, i, j, rfl⟩ : ∃ (b : Fin 256) (i j : Fin 128), q = ix3 b i j := ⟨q 0, q 1, q 2, eq_ix3 q⟩
  have hd := down_le hs
  have he := right_le hs
  have hd5 := row_lt hk
  have he5 := col_lt hk
  have hi : i.val < 128 := i.isLt
  have hj : j.val < 128 := j.isLt
  have e1 : extractStridedSlice Img ![0, d, e] P hs (ix3 b i j)
      = P (ix3 b ⟨i.val + d, by omega⟩ ⟨j.val + e, by omega⟩) :=
    extractStridedSlice_apply _ P hs _ _ (fun a => match a with
      | ⟨0, _⟩ => by show b.val = 0 + b.val; omega
      | ⟨1, _⟩ => by show i.val + d = d + i.val; omega
      | ⟨2, _⟩ => by show j.val + e = e + j.val; omega)
  have e2 : broadcastInDim Img ![0, 1, 2] h3 (broadcastInDim Plane1 ![1, 2] h2
        (shapeCast Plane (extractStridedSlice One4 ![d, e, 0, 0] (shapeCast Wts4 K h0) hk) h1)) (ix3 b i j)
      = K (ix2 (⟨5 * d + e, by omega⟩ : Fin 25) (flat i j)) := by
    refine (broadcastInDim_apply _ h3 _ (ix3 b i j) (ix3 (0 : Fin 1) i j) (fun a => match a with
      | ⟨0, _⟩ => rfl | ⟨1, _⟩ => rfl | ⟨2, _⟩ => rfl)).trans ?_
    refine (broadcastInDim_apply _ h2 _ (ix3 (0 : Fin 1) i j) (ix2 i j) (fun a => match a with
      | ⟨0, _⟩ => rfl | ⟨1, _⟩ => rfl)).trans ?_
    refine (shapeCast_apply _ h1 (ix2 i j) (ix4 (0 : Fin 1) (0 : Fin 1) i j) ?_).trans ?_
    · rw [Shape.rowMajor_val_four, Shape.rowMajor_val_two]
      show ((0 * 1 + 0) * 128 + i.val) * 128 + j.val = i.val * 128 + j.val
      omega
    refine (extractStridedSlice_apply _ _ hk _ (ix4 (⟨d, hd5⟩ : Fin 5) (⟨e, he5⟩ : Fin 5) i j) (fun a => match a with
      | ⟨0, _⟩ => by show d = d + 0; omega
      | ⟨1, _⟩ => by show e = e + 0; omega
      | ⟨2, _⟩ => by show i.val = 0 + i.val; omega
      | ⟨3, _⟩ => by show j.val = 0 + j.val; omega)).trans ?_
    refine shapeCast_apply K h0 _ _ ?_
    rw [Shape.rowMajor_val_four, Shape.rowMajor_val_two]
    show (5 * d + e) * 16384 + (i.val * 128 + j.val) = ((d * 5 + e) * 128 + i.val) * 128 + j.val
    omega
  show acc (ix3 b i j) + extractStridedSlice Img ![0, d, e] P hs (ix3 b i j) * _ = _
  rw [e1, e2]
  rfl

/-! ## One tap, as the kernel spells it inside a block of 64 planes

The kernel works on 64 planes at a time: `x0` is the block's bordered planes, `x1` the weights viewed as 25 planes (the
whole of them: every block uses all the weights), loaded one tap's plane at a time, squeezed, given back its unit axis and
repeated over the block's 64 planes. -/

/-- A block of bordered planes, a block of planes, the weights as 25 planes, a block of steps (one column). -/
abbrev PadBlk : Shape := ⟨3, ![64, 132, 132]⟩
abbrev ImgBlk : Shape := ⟨3, ![64, 128, 128]⟩
abbrev Wts3 : Shape := ⟨3, ![25, 128, 128]⟩
abbrev StepBlk : Shape := ⟨2, ![64, 1]⟩
abbrev StepBlk3 : Shape := ⟨3, ![64, 1, 1]⟩

theorem tap_lt {n : ℕ} (inb : ∀ a, (![n, 0, 0] : Fin 3 → ℕ) a + Plane1.size a ≤ Wts3.size a) : n < 25 := by
  have h : n + 1 ≤ 25 := inb 0
  omega

theorem blk_down_le {d e : ℕ} (hs : PadBlk.Slices ![0, d, e] ImgBlk) : d + 128 ≤ 132 := hs.2 1

theorem blk_right_le {d e : ℕ} (hs : PadBlk.Slices ![0, d, e] ImgBlk) : e + 128 ≤ 132 := hs.2 2

/-- What one tap adds inside a block, pixel by pixel: the neighbour `d` rows and `e` columns into the bordered plane
    times the pixel's entry of weight plane `n`. -/
def blockTap (d e n : ℕ) (hd : d + 128 ≤ 132) (he : e + 128 ≤ 132) (hn : n < 25)
    (x0 : PadBlk.Idx → EReal) (x1 : Wts3.Idx → EReal) (acc : ImgBlk.Idx → EReal) : ImgBlk.Idx → EReal :=
  fun y => acc y + x0 (ix3 (y 0 : Fin 64) ⟨(y 1).val + d, by have : (y 1).val < 128 := (y 1).isLt; omega⟩
      ⟨(y 2).val + e, by have : (y 2).val < 128 := (y 2).isLt; omega⟩)
    * x1 (ix3 (⟨n, hn⟩ : Fin 25) (y 1 : Fin 128) (y 2 : Fin 128))

/-- The kernel's load / squeeze / unsqueeze / repeat / slice / multiply / add over a block IS that pixel-by-pixel step. -/
theorem blockTap_eq {d e n : ℕ} (hs : PadBlk.Slices ![0, d, e] ImgBlk)
    (inb : ∀ a, (![n, 0, 0] : Fin 3 → ℕ) a + Plane1.size a ≤ Wts3.size a)
    (h1 : Plane1.ShapeCasts Plane) (h2 : Plane.ShapeCasts Plane1) (h3 : Plane1.Broadcasts ImgBlk)
    (x0 : FVec Ideal PadBlk .f32) (x1 : Vec Ideal Wts3 .f32) (acc : FVec Ideal ImgBlk .f32) :
    addf acc (mulf (extractStridedSlice ImgBlk ![0, d, e] x0 hs)
      (broadcastTo ImgBlk (shapeCast Plane1 (shapeCast Plane (View.ld x1 (Rect.unit (s := Wts3) ![n, 0, 0] Plane1.size inb)) h1) h2) h3))
      = blockTap d e n (blk_down_le hs) (blk_right_le hs) (tap_lt inb) x0 x1 acc := by
  funext y
  obtain ⟨b, i, j, rfl⟩ : ∃ (b : Fin 64) (i j : Fin 128), y = ix3 b i j := ⟨y 0, y 1, y 2, eq_ix3 y⟩
  have hd := blk_down_le hs
  have he := blk_right_le hs
  have hi : i.val < 128 := i.isLt
  have hj : j.val < 128 := j.isLt
  have e1 : extractStridedSlice ImgBlk ![0, d, e] x0 hs (ix3 b i j)
      = x0 (ix3 b ⟨i.val + d, by omega⟩ ⟨j.val + e, by omega⟩) :=
    extractStridedSlice_apply _ x0 hs _ _ (fun a => match a with
      | ⟨0, _⟩ => by show b.val = 0 + b.val; omega
      | ⟨1, _⟩ => by show i.val + d = d + i.val; omega
      | ⟨2, _⟩ => by show j.val + e = e + j.val; omega)
  have e2 : broadcastTo ImgBlk (shapeCast Plane1 (shapeCast Plane
        (View.ld x1 (Rect.unit (s := Wts3) ![n, 0, 0] Plane1.size inb)) h1) h2) h3 (ix3 b i j)
      = x1 (ix3 (⟨n, tap_lt inb⟩ : Fin 25) i j) := by
    rw [shapeCast_shapeCast]
    refine (broadcastTo_apply _ h3 (ix3 b i j) (ix3 (0 : Fin 1) i j) (fun a => match a with
      | ⟨0, _⟩ => rfl | ⟨1, _⟩ => rfl | ⟨2, _⟩ => rfl)).trans ?_
    show x1 ((Rect.unit (s := Wts3) ![n, 0, 0] Plane1.size inb).emb (ix3 (0 : Fin 1) i j)) = _
    refine congrArg x1 (funext fun a => Fin.ext ?_)
    match a with
    | ⟨0, _⟩ => show n + 1 * 0 = n; omega
    | ⟨1, _⟩ => show 0 + 1 * i.val = i.val; omega
    | ⟨2, _⟩ => show 0 + 1 * j.val = j.val; omega
  show acc (ix3 b i j) + extractStridedSlice ImgBlk ![0, d, e] x0 hs (ix3 b i j) * _ = _
  rw [e1, e2]
  rfl

/-- The block's own pixels inside its bordered planes: two rows down, two columns right. -/
theorem centre_apply (hs : PadBlk.Slices ![0, 2, 2] ImgBlk) (x0 : FVec Ideal PadBlk .f32) (y : ImgBlk.Idx) :
    extractStridedSlice ImgBlk ![0, 2, 2] x0 hs y
      = x0 (ix3 (y 0 : Fin 64) ⟨(y 1).val + 2, by have : (y 1).val < 128 := (y 1).isLt; omega⟩
          ⟨(y 2).val + 2, by have : (y 2).val < 128 := (y 2).isLt; omega⟩) :=
  extractStridedSlice_apply _ x0 hs _ _ (fun a => match a with
    | ⟨0, _⟩ => by show (y 0).val = 0 + (y 0).val; omega
    | ⟨1, _⟩ => by show (y 1).val + 2 = 2 + (y 1).val; omega
    | ⟨2, _⟩ => by show (y 2).val + 2 = 2 + (y 2).val; omega)

/-- The block's column of steps, given a second unit axis and repeated over each plane: plane `b`'s step at every pixel. -/
theorem stepBlk_apply (h2 : StepBlk.ShapeCasts StepBlk3) (h3 : StepBlk3.Broadcasts ImgBlk)
    (x2 : Vec Ideal StepBlk .f32) (y : ImgBlk.Idx) :
    broadcastTo ImgBlk (shapeCast StepBlk3 x2 h2) h3 y = x2 (ix2 (y 0 : Fin 64) (0 : Fin 1)) := by
  refine (broadcastTo_apply _ h3 y (ix3 (y 0 : Fin 64) (0 : Fin 1) (0 : Fin 1)) (fun a => match a with
    | ⟨0, _⟩ => rfl | ⟨1, _⟩ => rfl | ⟨2, _⟩ => rfl)).trans ?_
  refine shapeCast_apply x2 h2 _ _ ?_
  rw [Shape.rowMajor_val_two, Shape.rowMajor_val_three]
  show (y 0).val * 1 + 0 = ((y 0).val * 1 + 0) * 1 + 0
  omega

/-! ## The host program's two broadcasts -/

/-- The steps with two unit axes, and the scalars. -/
abbrev Steps3 : Shape := ⟨3, ![256, 1, 1]⟩
abbrev Scalar0 : Shape := ⟨0, ![]⟩

/-- The steps given two unit axes and repeated over each plane: plane `b`'s step at every pixel. -/
theorem steps_apply (h2 : Steps.BroadcastsInDim Steps3 ![0]) (h3 : Steps3.BroadcastsInDim Img ![0, 1, 2])
    (dt : FVec Ideal Steps .f32) (q : Img.Idx) :
    broadcastInDim Img ![0, 1, 2] h3 (broadcastInDim Steps3 ![0] h2 dt) q = dt (ix1 (q 0 : Fin 256)) := by
  refine (broadcastInDim_apply _ h3 _ q (ix3 (q 0 : Fin 256) (0 : Fin 1) (0 : Fin 1)) (fun a => match a with
    | ⟨0, _⟩ => rfl | ⟨1, _⟩ => rfl | ⟨2, _⟩ => rfl)).trans ?_
  exact broadcastInDim_apply _ h2 _ _ (ix1 (q 0 : Fin 256)) (fun a => match a with | ⟨0, _⟩ => rfl)

/-- The zero scalar repeated over an image is `zeroW` at every pixel. -/
theorem zero_apply (h : Scalar0.BroadcastsInDim Img ![]) (q : Img.Idx) :
    broadcastInDim Img ![] h (constant (F := Ideal) Scalar0 .f32 0x00000000#32) q = zeroW := by
  rw [broadcastInDim_apply _ h _ q ix0 (fun a => a.elim0)]
  rfl

end Cert.Stencil

end
-- ==== Proof.Block.lean ====
/-
  What the kernel leaves in one block of the result, pixel by pixel.

  At a grid point the kernel has three staged blocks before it: `x0`, 64 bordered planes of the image; `x1`, the weights
  viewed as 25 planes (all of them, at every point); `x2`, the 64 planes' time steps as a column.  Its body is straight
  line: it cuts the planes' own pixels out of the middle of `x0`, starts a sum at zero, and for each tap `n = 5 d + e` in
  order adds the window of `x0` shifted `d` rows and `e` columns times weight plane `n` repeated over the 64 planes; it
  then multiplies the sum by the steps repeated over each plane, adds the planes' own pixels, and clamps below at zero —
  one store of the whole block.

  Each of those 25 steps is `blockTap` of Stencil.lean (`blockTap_eq`), so the stored block, read at a pixel, is the
  specification's `pixel` of the left fold `accum` over the block's own reads: `out_eq`.  Nothing is regrouped and no
  zero is cancelled: the kernel's sum and the specification's are the same nest of additions.
-/
import proofs.«145319_j87746181857881_1_alg».proof.Proof.Gen.KernelIdeal.Frame
import proofs.«145319_j87746181857881_1_alg».proof.Proof.Stencil

noncomputable section

namespace Cert.Stencil.Block

open Idealize.ShloMosaic Idealize.ShloMosaic.ValueIdx Idealize.ShloMosaic.TcCoe Idealize.SL.Sem
open Cert.KernelIdeal Cert.KernelIdeal.Gen Cert.Stencil

/-- A whole block is loaded and stored through the rectangle at offsets zero. -/
theorem hz3 : (![0, 0, 0] : Fin 3 → Nat) = fun _ => 0 := funext fun a => by fin_cases a <;> rfl
theorem hz2 : (![0, 0] : Fin 2 → Nat) = fun _ => 0 := funext fun a => by fin_cases a <;> rfl

/-- THE BLOCK THE BODY LEAVES, at pixel `(y 1, y 2)` of the block's plane `y 0`: that plane's own pixel (two rows and two
    columns into its bordered plane) plus the 25-term stencil sum over the bordered plane and the pixel's weights, times
    the plane's step, clamped below at zero. -/
theorem out_eq (x0 : Vec Ideal S64x132x132 .f32) (x1 : Vec Ideal S25x128x128 .f32) (x2 : Vec Ideal S64x1 .f32)
    (y : S64x128x128.Idx) :
    out0_3 (F := Ideal) x0 x1 x2 y
      = pixel zeroW (x0 (ix3 (y 0 : Fin 64) ⟨(y 1).val + 2, by have : (y 1).val < 128 := (y 1).isLt; omega⟩
            ⟨(y 2).val + 2, by have : (y 2).val < 128 := (y 2).isLt; omega⟩))
          (accum zeroW (fun r s => x0 (ix3 (y 0 : Fin 64) r s)) (fun n => x1 (ix3 n (y 1 : Fin 128) (y 2 : Fin 128))) (y 1) (y 2))
          (x2 (ix2 (y 0 : Fin 64) (0 : Fin 1))) := by
  -- the one store covers the block: the block is the stored value
  unfold out0_3
  rw [View.canon_unit_zero hz3]
  -- the bordered planes and the steps are loaded whole
  simp only [View.ld_unit_zero (S := S64x132x132) hz3, View.ld_unit_zero (S := S64x1) hz2]
  -- the stored value as the body computes it: 25 taps, one after the other
  unfold k0_pay1 k0_pay3 k0_pay7 k0_pay6 k0_pay5 k0_pay4 k0_pay2
  simp only [shapeCast_self, blockTap_eq]
  -- read at the pixel
  show max (extractStridedSlice S64x128x128 ![0, 2, 2] x0 _ y + _ * broadcastTo S64x128x128 _ _ y) _ = _
  rw [centre_apply, stepBlk_apply]
  -- both sides are now the same 25 additions onto the same zero
  unfold pixel accum taps
  simp only [List.foldl]
  unfold blockTap
  rfl

end Cert.Stencil.Block

end
-- ==== Proof.Array.lean ====
/-
  From blocks to the array: what the kernel program's result array holds after the run.

  Before the launch @main borders the image with two rows and columns of a constant on every side (`bordered`), views
  the weights as 25 planes and the steps as a column; none of this changes a value, it only moves it.  The launch runs
  four grid points; point `t` stages planes `64 t … 64 t + 63` of the bordered image and of the steps, all of the weights,
  and writes back planes `64 t … 64 t + 63` of the result.

  So pixel `(i, j)` of block plane `b` at point `t` is pixel `(i, j)` of plane `B = 64 t + b` of the result, the
  bordered plane the body reads is plane `B` of the bordered image, the weight it reads for tap `n` is entry
  `(n, 128 i + j)` of the weights as given, the step is `dt B`; and the plane's own pixel, read two rows and columns into
  the border, is `f B i j` itself.  With Block.lean's `out_eq` that makes what point `t` writes back block `t` of the
  specification's `update` (`flushed_eq`); the four blocks tile the array (`cover`), so the array IS `update` (`final`), and the
  frame's run says so (`run`).
-/
import proofs.«145319_j87746181857881_1_alg».proof.Proof.ValueBlocks
import proofs.«145319_j87746181857881_1_alg».proof.Proof.Block
import Idealize.ShloMosaic.Lib.StableHlo.Run
import Idealize.ShloMosaic.Lib.KernelVsHost

noncomputable section

namespace Cert.Stencil.Array

open Idealize.ShloMosaic Idealize.ShloMosaic.ValueIdx Idealize.ShloMosaic.TcCoe Idealize.SL.Sem
open Idealize.ShloMosaic.Pipeline (Dat)
open Cert.KernelIdeal Cert.KernelIdeal.Gen Cert.Stencil

variable (m : (ℓ : Loc nD τ sig) → Buf (Elt Ideal) ℓ) (ρ : Dev nD → PrngReg)

/-! ## The arrays the launch finds -/

/-- The image with its border, as @main builds it: the border's value is whatever the program's constant denotes —
    it is the same term in both programs and is never opened. -/
abbrev bordered (f : FVec Ideal S256x128x128 .f32) : FVec Ideal S256x132x132 .f32 :=
  pad S256x132x132 ![0, 2, 2] ![0, 2, 2] ![0, 0, 0] f (sitofp (F := Ideal) .f32 (constantI S_ 32 0#32))
    pads_S256x128x128_S256x132x132_000_220_220 h_S_

/-- The first window's array is the bordered image. -/
theorem V_v0 (c : Dev nD) :
    (V m c main_v0 : S256x132x132.Idx → EReal) = bordered (m ((c : Thread nD τ).loc main_arg0)) := by
  dsimp only [Gen.V]
  simp only [Gen.hostOps0, Gen.hostOps0_1, Gen.hostOps0_2, List.flatten_cons, List.flatten_nil, List.append_nil,
    List.cons_append, List.nil_append]
  after_results
  rfl

/-- The second window's array is the weights viewed as 25 planes. -/
theorem V_v1 (c : Dev nD) :
    (V m c main_v1 : S25x128x128.Idx → EReal)
      = shapeCast S25x128x128 (m ((c : Thread nD τ).loc main_arg1)) shapeCasts_S25x16384_S25x128x128 := by
  dsimp only [Gen.V]
  simp only [Gen.hostOps0, Gen.hostOps0_1, Gen.hostOps0_2, List.flatten_cons, List.flatten_nil, List.append_nil,
    List.cons_append, List.nil_append]
  after_results
  rfl

/-- The third window's array is the steps as a column. -/
theorem V_v2 (c : Dev nD) :
    (V m c main_v2 : S256x1.Idx → EReal)
      = shapeCast S256x1 (m ((c : Thread nD τ).loc main_arg2)) shapeCasts_S256_S256x1 := by
  dsimp only [Gen.V]
  simp only [Gen.hostOps0, Gen.hostOps0_1, Gen.hostOps0_2, List.flatten_cons, List.flatten_nil, List.append_nil,
    List.cons_append, List.nil_append]
  after_results
  rfl

/-! ## What a grid point writes back -/

/-- WHAT THE RESULT ARRAY ENDS HOLDING: the update of the launched image (with its border), weights and steps. -/
def G (c : Dev nD) : S256x128x128.Idx → EReal :=
  update (m ((c : Thread nD τ).loc main_arg0)) (bordered (m ((c : Thread nD τ).loc main_arg0)))
    (m ((c : Thread nD τ).loc main_arg1)) (m ((c : Thread nD τ).loc main_arg2))

/-- The index maps, decided over the four grid points: the bordered image, the steps and the result move one block of 64
    planes per point and stay put on the other axes; the weights never move. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- WHAT POINT `t` WRITES BACK is block `t` of `G`: at pixel `(i, j)` of the block's plane `b`, with `B = 64 t + b`, the
    body's reads are plane `B` of the bordered image, the weights of pixel `(i, j)` and step `B`, and the plane's own pixel,
    two rows and columns into the border, is the image's. -/
theorem flushed_eq (c : Dev nD) (t : Fin cfg0.N) :
    (dats m 0 c).flushed 3 t = ((cfg0.win 3).blk t).view.read (Elt Ideal) (G m c) := by
  rw [Cert.KernelIdeal.ValueP.flushed3]
  funext y
  have ht : t.val < 4 := lt_of_lt_of_eq t.isLt N_0
  obtain ⟨e00, e01, e02, e10, e11, e12, e20, e21, e30, e31, e32⟩ := idx_facts t
  have hy0 : (y 0).val < 64 := (y 0).isLt
  have hy1 : (y 1).val < 128 := (y 1).isLt
  have hy2 : (y 2).val < 128 := (y 2).isLt
  show out0_3 (iblk m c 0 t) (iblk m c 1 t) (iblk m c 2 t) y = G m c (((cfg0.win 3).blk t).view.emb y)
  refine (Block.out_eq (iblk m c 0 t) (iblk m c 1 t) (iblk m c 2 t) y).trans ?_
  obtain ⟨B, hB⟩ : ∃ B : Fin 256, B.val = 64 * t.val + (y 0).val := ⟨⟨64 * t.val + (y 0).val, by omega⟩, rfl⟩
  have hemb : ((cfg0.win 3).blk t).view.emb y = ix3 B (y 1 : Fin 128) (y 2 : Fin 128) := by
    funext a; apply Fin.ext
    match a with
    | ⟨0, _⟩ => show win0_3.index t (0 : Fin 3) * 64 + 1 * (y 0).val = B.val; omega
    | ⟨1, _⟩ => show win0_3.index t (1 : Fin 3) * 128 + 1 * (y 1).val = (y 1).val; omega
    | ⟨2, _⟩ => show win0_3.index t (2 : Fin 3) * 128 + 1 * (y 2).val = (y 2).val; omega
  rw [hemb]
  have hP : ∀ r s : Fin 132, iblk m c 0 t (ix3 (y 0 : Fin 64) r s)
      = bordered (m ((c : Thread nD τ).loc main_arg0)) (ix3 B r s) := by
    intro r s
    have hr : r.val < 132 := r.isLt
    have hs : s.val < 132 := s.isLt
    show (V m c main_v0 : S256x132x132.Idx → EReal) (((cfg0.win 0).blk t).view.emb (ix3 (y 0 : Fin 64) r s)) = _
    rw [V_v0 m c]
    refine congrArg _ (funext fun a => Fin.ext ?_)
    match a with
    | ⟨0, _⟩ => show win0_0.index t (0 : Fin 3) * 64 + 1 * (y 0).val = B.val; omega
    | ⟨1, _⟩ => show win0_0.index t (1 : Fin 3) * 132 + 1 * r.val = r.val; omega
    | ⟨2, _⟩ => show win0_0.index t (2 : Fin 3) * 132 + 1 * s.val = s.val; omega
  have hK : ∀ (n : Fin 25) (i j : Fin 128), iblk m c 1 t (ix3 n i j)
      = m ((c : Thread nD τ).loc main_arg1) (ix2 n (flat i j)) := by
    intro n i j
    have hi : i.val < 128 := i.isLt
    have hj : j.val < 128 := j.isLt
    have hn : n.val < 25 := n.isLt
    have he : ((cfg0.win 1).blk t).view.emb (ix3 n i j) = (ix3 n i j : S25x128x128.Idx) :=
      funext fun a => Fin.ext (by
        match a with
        | ⟨0, _⟩ => show win0_1.index t (0 : Fin 3) * 25 + 1 * n.val = n.val; omega
        | ⟨1, _⟩ => show win0_1.index t (1 : Fin 3) * 128 + 1 * i.val = i.val; omega
        | ⟨2, _⟩ => show win0_1.index t (2 : Fin 3) * 128 + 1 * j.val = j.val; omega)
    show (V m c main_v1 : S25x128x128.Idx → EReal) (((cfg0.win 1).blk t).view.emb (ix3 n i j)) = _
    rw [he, V_v1 m c]
    refine shapeCast_apply _ _ _ _ ?_
    show (S25x16384.rowMajor (ix2 n (flat i j))).val = (S25x128x128.rowMajor (ix3 n i j)).val
    rw [Shape.rowMajor_val_two, Shape.rowMajor_val_three]
    show n.val * 16384 + (i.val * 128 + j.val) = (n.val * 128 + i.val) * 128 + j.val
    omega
  have hD : iblk m c 2 t (ix2 (y 0 : Fin 64) (0 : Fin 1)) = m ((c : Thread nD τ).loc main_arg2) (ix1 B) := by
    have he : ((cfg0.win 2).blk t).view.emb (ix2 (y 0 : Fin 64) (0 : Fin 1)) = (ix2 B (0 : Fin 1) : S256x1.Idx) :=
      funext fun a => Fin.ext (by
        match a with
        | ⟨0, _⟩ => show win0_2.index t (0 : Fin 2) * 64 + 1 * (y 0).val = B.val; omega
        | ⟨1, _⟩ => show win0_2.index t (1 : Fin 2) * 1 + 1 * 0 = 0; omega)
    show (V m c main_v2 : S256x1.Idx → EReal) (((cfg0.win 2).blk t).view.emb (ix2 (y 0 : Fin 64) (0 : Fin 1))) = _
    rw [he, V_v2 m c]
    refine shapeCast_apply _ _ _ _ ?_
    show (S256.rowMajor (ix1 B)).val = (S256x1.rowMajor (ix2 B (0 : Fin 1))).val
    rw [Shape.rowMajor_val_one, Shape.rowMajor_val_two]
    show B.val = B.val * 1 + 0
    omega
  have hC : bordered (m ((c : Thread nD τ).loc main_arg0)) (ix3 B ⟨(y 1).val + 2, by omega⟩ ⟨(y 2).val + 2, by omega⟩)
      = m ((c : Thread nD τ).loc main_arg0) (ix3 B (y 1 : Fin 128) (y 2 : Fin 128)) :=
    pad_apply_of_inside _ _ _ _ _ pads_S256x128x128_S256x132x132_000_220_220 h_S_ _ _ (fun a => match a with
      | ⟨0, _⟩ => by show B.val = 0 + B.val * (0 + 1); omega
      | ⟨1, _⟩ => by show (y 1).val + 2 = 2 + (y 1).val * (0 + 1); omega
      | ⟨2, _⟩ => by show (y 2).val + 2 = 2 + (y 2).val * (0 + 1); omega)
  have hP' : (fun r s : Fin 132 => iblk m c 0 t (ix3 (y 0 : Fin 64) r s))
      = fun r s => bordered (m ((c : Thread nD τ).loc main_arg0)) (ix3 B r s) := funext fun r => funext fun s => hP r s
  have hK' : (fun n : Fin 25 => iblk m c 1 t (ix3 n (y 1 : Fin 128) (y 2 : Fin 128)))
      = fun n => m ((c : Thread nD τ).loc main_arg1) (ix2 n (flat (y 1) (y 2))) := funext fun n => hK n _ _
  rw [hP', hK', hD, hP, hC]
  rfl

/-! ## The four blocks tile the array -/

/-- An index of the result is in point `t`'s block iff each coordinate is in the block's range on its axis. -/
theorem mem_blk (t : Fin cfg0.N) (i : S256x128x128.Idx) :
    i ∈ ((cfg0.win 3).blk t).view.set ↔ ∀ a : Fin 3, win0_3.index t a * S64x128x128.size a ≤ (i a).val
      ∧ (i a).val < win0_3.index t a * S64x128x128.size a + S64x128x128.size a := by
  show i ∈ ((View.whole main_v3).slice (win0_3.rect t)).set ↔ _
  rw [View.set_slice_whole, Rect.mem_set_unit]
  exact Iff.rfl

/-- Every index of the result is in some point's block: plane `B` is written back at point `B / 64`. -/
theorem cover (i : S256x128x128.Idx) :
    ∃ t : Fin cfg0.N, (cfg0.win 3).flush t = true ∧ i ∈ ((cfg0.win 3).blk t).view.set := by
  have hi0 : (i 0).val < 256 := (i 0).isLt
  have hi1 : (i 1).val < 128 := (i 1).isLt
  have hi2 : (i 2).val < 128 := (i 2).isLt
  obtain ⟨t, htv⟩ : ∃ t : Fin cfg0.N, t.val = (i 0).val / 64 :=
    ⟨⟨(i 0).val / 64, by show (i 0).val / 64 < grid0.N; rw [N_0]; omega⟩, rfl⟩
  obtain ⟨-, -, -, -, -, -, -, -, e30, e31, e32⟩ := idx_facts t
  refine ⟨t, flush0_3 t, ?_⟩
  rw [mem_blk]
  intro a
  match a with
  | ⟨0, _⟩ =>
    show win0_3.index t (0 : Fin 3) * 64 ≤ (i 0).val ∧ (i 0).val < win0_3.index t (0 : Fin 3) * 64 + 64
    omega
  | ⟨1, _⟩ =>
    show win0_3.index t (1 : Fin 3) * 128 ≤ (i 1).val ∧ (i 1).val < win0_3.index t (1 : Fin 3) * 128 + 128
    omega
  | ⟨2, _⟩ =>
    show win0_3.index t (2 : Fin 3) * 128 ≤ (i 2).val ∧ (i 2).val < win0_3.index t (2 : Fin 3) * 128 + 128
    omega

/-- THE RESULT ARRAY after the run is `G`. -/
theorem final (c : Dev nD) : (dats m 0 c).arrAt 3 cfg0.N = G m c :=
  (dats m 0 c).arrAt_eq_of_cover 3 (G m c) (fun t _ => flushed_eq m c t) cover

/-- The kernel program's run: it terminates with the result array at `G` and the arguments as launched. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.ValueP.run_blocks m ρ)

end Cert.Stencil.Array

end
-- ==== Proof.HostOps.lean ====
/-
  The host program's @main as four lists of operations, one per window of its text, and the facts about them that a
  straight-line run asks for: each window IS its list run in order, every operation touches TensorCore buffers only and
  none allocates.  The operations are the program's own, in its own order; nothing here says what they compute (HostRun.lean
  does).
-/
import proofs.«145319_j87746181857881_1_alg».proof.Proof.Gen.ReferenceIdeal
import Idealize.ShloMosaic.Lib.StableHlo.Run

noncomputable section

namespace Cert.Stencil.HostOps

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 61 (through the product of the eighth tap); the called bordering function's two operations stand at its call. -/
abbrev ops0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S256x128x128, .f32⟩) main_arg0) (TRef.of (T := ⟨S_, .f32⟩) main_call0_v0) (TRef.of (T := ⟨S256x132x132, .f32⟩) main_v0) (fun x v => pad S256x132x132 ![0, 2, 2] ![0, 2, 2] ![0, 0, 0] x v pads_S256x128x128_S256x132x132_000_220_220 h_S_),
    reshape main_arg1 main_v1 rfl shapeCasts_S25x16384_S5x5x128x128,
    nullary main_cst (constant S_ .f32 0x00000000#32),
    unary main_cst main_v2 (broadcastInDim S256x128x128 ![] bcast_S_S256x128x128 : (⟨S_, .f32⟩ : BufTy).Contents (Elt F) → (⟨S256x128x128, .f32⟩ : BufTy).Contents (Elt F)),
    unary main_v0 main_v3 ((extractStridedSlice S256x128x128 ![0, 0, 0] · slices_S256x132x132_S256x128x128_0_0_0) : (⟨S256x132x132, .f32⟩ : BufTy).Contents (Elt F) → (⟨S256x128x128, .f32⟩ : BufTy).Contents (Elt F)),
    unary main_v1 main_v4 ((extractStridedSlice S1x1x128x128 ![0, 0, 0, 0] · slices_S5x5x128x128_S1x1x128x128_0_0_0_0) : (⟨S5x5x128x128, .f32⟩ : BufTy).Contents (Elt F) → (⟨S1x1x128x128, .f32⟩ : BufTy).Contents (Elt F)),
    reshape main_v4 main_v5 rfl shapeCasts_S1x1x128x128_S128x128,
    unary main_v5 main_v6 (broadcastInDim S1x128x128 ![1, 2] bcast_S128x128_S1x128x128_1_2 : (⟨S128x128, .f32⟩ : BufTy).Contents (Elt F) → (⟨S1x128x128, .f32⟩ : BufTy).Contents (Elt F)),
    unary main_v6 main_v7 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v3 main_v7 main_v8 (mulf : (⟨S256x128x128, .f32⟩ : BufTy).Contents (Elt F) → (⟨S256x128x128, .f32⟩ : BufTy).Contents (Elt F) → (⟨S256x128x128, .f32⟩ : BufTy).Contents (Elt F)),
    binary main_v2 main_v8 main_v9 (addf : (⟨S256x128x128, .f32⟩ : BufTy).Contents (Elt F) → (⟨S256x128x128, .f32⟩ : BufTy).Contents (Elt F) → (⟨S256x128x128, .f32⟩ : BufTy).Contents (Elt F)),
    unary main_v0 main_v10 ((extractStridedSlice S256x128x128 ![0, 0, 1] · slices_S256x132x132_S256x128x128_0_0_1) : (⟨S256x132x132, .f32⟩ : BufTy).Contents (Elt F) → (⟨S256x128x128, .f32⟩ : BufTy).Contents (Elt F)),
    unary main_v1 main_v11 ((extractStridedSlice S1x1x128x128 ![0, 1, 0, 0] · slices_S5x5x128x128_S1x1x128x128_0_1_0_0) : (⟨S5x5x128x128, .f32⟩ : BufTy).Contents (Elt F) → (⟨S1x1x128x128, .f32⟩ : BufTy).Contents (Elt F)),
    reshape main_v11 main_v12 rfl shapeCasts_S1x1x128x128_S128x128,
    unary main_v12 main_v13 (broadcastInDim S1x128x128 ![1, 2] bcast_S128x128_S1x128x128_1_2 : (⟨S128x128, .f32⟩ : BufTy).Contents (Elt F) → (⟨S1x128x128, .f32⟩ : BufTy).Contents (Elt F)),
    unary main_v13 main_v14 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v10 main_v14 main_v15 (mulf : (⟨S256x128x128, .f32⟩ : BufTy).Contents (Elt F) → (⟨S256x128x128, .f32⟩ : BufTy).Contents (Elt F) → (⟨S256x128x128, .f32⟩ : BufTy).Contents (Elt F)),
    binary main_v9 main_v15 main_v16 (addf : (⟨S256x128x128, .f32⟩ : BufTy).Contents (Elt F) → (⟨S256x128x128, .f32⟩ : BufTy).Contents (Elt F) → (⟨S256x128x128, .f32⟩ : BufTy).Contents (Elt F)),
    unary main_v0 main_v17 ((extractStridedSlice S256x128x128 ![0, 0, 2] · slices_S256x132x132_S256x128x128_0_0_2) : (⟨S256x132x132, .f32⟩ : BufTy).Contents (Elt F) → (⟨S256x128x128, .f32⟩ : BufTy).Contents (Elt F)),
    unary main_v1 main_v18 ((extractStridedSlice S1x1x128x128 ![0, 2, 0, 0] · slices_S5x5x128x128_S1x1x128x128_0_2_0_0) : (⟨S5x5x128x128, .f32⟩ : BufTy).Contents (Elt F) → (⟨S1x1x128x128, .f32⟩ : BufTy).Contents (Elt F)),
    reshape main_v18 main_v19 rfl shapeCasts_S1x1x128x128_S128x128,
    unary main_v19 main_v20 (broadcastInDim S1x128x128 ![1, 2] bcast_S128x128_S1x128x128_1_2 : (⟨S128x128, .f32⟩ : BufTy).Contents (Elt F) → (⟨S1x128x128, .f32⟩ : BufTy).Contents (Elt F)),
    unary main_v20 main_v21 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v17 main_v21 main_v22 (mulf : (⟨S256x128x128, .f32⟩ : BufTy).Contents (Elt F) → (⟨S256x128x128, .f32⟩ : BufTy).Contents (Elt F) → (⟨S256x128x128, .f32⟩ : BufTy).Contents (Elt F)),
    binary main_v16 main_v22 main_v23 (addf : (⟨S256x128x128, .f32⟩ : BufTy).Contents (Elt F) → (⟨S256x128x128, .f32⟩ : BufTy).Contents (Elt F) → (⟨S256x128x128, .f32⟩ : BufTy).Contents (Elt F)),
    unary main_v0 main_v24 ((extractStridedSlice S256x128x128 ![0, 0, 3] · slices_S256x132x132_S256x128x128_0_0_3) : (⟨S256x132x132, .f32⟩ : BufTy).Contents (Elt F) → (⟨S256x128x128, .f32⟩ : BufTy).Contents (Elt F)),
    unary main_v1 main_v25 ((extractStridedSlice S1x1x128x128 ![0, 3, 0, 0] · slices_S5x5x128x128_S1x1x128x128_0_3_0_0) : (⟨S5x5x128x128, .f32⟩ : BufTy).Contents (Elt F) → (⟨S1x1x128x128, .f32⟩ : BufTy).Contents (Elt F)),
    reshape main_v25 main_v26 rfl shapeCasts_S1x1x128x128_S128x128,
    unary main_v26 main_v27 (broadcastInDim S1x128x128 ![1, 2] bcast_S128x128_S1x128x128_1_2 : (⟨S128x128, .f32⟩ : BufTy).Contents (Elt F) → (⟨S1x128x128, .f32⟩ : BufTy).Contents (Elt F)),
    unary main_v27 main_v28 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v24 main_v28 main_v29 (mulf : (⟨S256x128x128, .f32⟩ : BufTy).Contents (Elt F) → (⟨S256x128x128, .f32⟩ : BufTy).Contents (Elt F) → (⟨S256x128x128, .f32⟩ : BufTy).Contents (Elt F)),
    binary main_v23 main_v29 main_v30 (addf : (⟨S256x128x128, .f32⟩ : BufTy).Contents (Elt F) → (⟨S256x128x128, .f32⟩ : BufTy).Contents (Elt F) → (⟨S256x128x128, .f32⟩ : BufTy).Contents (Elt F)),
    unary main_v0 main_v31 ((extractStridedSlice S256x128x128 ![0, 0, 4] · slices_S256x132x132_S256x128x128_0_0_4) : (⟨S256x132x132, .f32⟩ : BufTy).Contents (Elt F) → (⟨S256x128x128, .f32⟩ : BufTy).Contents (Elt F)),
    unary main_v1 main_v32 ((extractStridedSlice S1x1x128x128 ![0, 4, 0, 0] · slices_S5x5x128x128_S1x1x128x128_0_4_0_0) : (⟨S5x5x128x128, .f32⟩ : BufTy).Contents (Elt F) → (⟨S1x1x128x128, .f32⟩ : BufTy).Contents (Elt F)),
    reshape main_v32 main_v33 rfl shapeCasts_S1x1x128x128_S128x128,
    unary main_v33 main_v34 (broadcastInDim S1x128x128 ![1, 2] bcast_S128x128_S1x128x128_1_2 : (⟨S128x128, .f32⟩ : BufTy).Contents (Elt F) → (⟨S1x128x128, .f32⟩ : BufTy).Contents (Elt F)),
    unary main_v34 main_v35 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v31 main_v35 main_v36 (mulf : (⟨S256x128x128, .f32⟩ : BufTy).Contents (Elt F) → (⟨S256x128x128, .f32⟩ : BufTy).Contents (Elt F) → (⟨S256x128x128, .f32⟩ : BufTy).Contents (Elt F)),
    binary main_v30 main_v36 main_v37 (addf : (⟨S256x128x128, .f32⟩ : BufTy).Contents (Elt F) → (⟨S256x128x128, .f32⟩ : BufTy).Contents (Elt F) → (⟨S256x128x128, .f32⟩ : BufTy).Contents (Elt F)),
    unary main_v0 main_v38 ((extractStridedSlice S256x128x128 ![0, 1, 0] · slices_S256x132x132_S256x128x128_0_1_0) : (⟨S256x132x132, .f32⟩ : BufTy).Contents (Elt F) → (⟨S256x128x128, .f32⟩ : BufTy).Contents (Elt F)),
    unary main_v1 main_v39 ((extractStridedSlice S1x1x128x128 ![1, 0, 0, 0] · slices_S5x5x128x128_S1x1x128x128_1_0_0_0) : (⟨S5x5x128x128, .f32⟩ : BufTy).Contents (Elt F) → (⟨S1x1x128x128, .f32⟩ : BufTy).Contents (Elt F)),
    reshape main_v39 main_v40 rfl shapeCasts_S1x1x128x128_S128x128,
    unary main_v40 main_v41 (broadcastInDim S1x128x128 ![1, 2] bcast_S128x128_S1x128x128_1_2 : (⟨S128x128, .f32⟩ : BufTy).Contents (Elt F) → (⟨S1x128x128, .f32⟩ : BufTy).Contents (Elt F)),
    unary main_v41 main_v42 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v38 main_v42 main_v43 (mulf : (⟨S256x128x128, .f32⟩ : BufTy).Contents (Elt F) → (⟨S256x128x128, .f32⟩ : BufTy).Contents (Elt F) → (⟨S256x128x128, .f32⟩ : BufTy).Contents (Elt F)),
    binary main_v37 main_v43 main_v44 (addf : (⟨S256x128x128, .f32⟩ : BufTy).Contents (Elt F) → (⟨S256x128x128, .f32⟩ : BufTy).Contents (Elt F) → (⟨S256x128x128, .f32⟩ : BufTy).Contents (Elt F)),
    unary main_v0 main_v45 ((extractStridedSlice S256x128x128 ![0, 1, 1] · slices_S256x132x132_S256x128x128_0_1_1) : (⟨S256x132x132, .f32⟩ : BufTy).Contents (Elt F) → (⟨S256x128x128, .f32⟩ : BufTy).Contents (Elt F)),
    unary main_v1 main_v46 ((extractStridedSlice S1x1x128x128 ![1, 1, 0, 0] · slices_S5x5x128x128_S1x1x128x128_1_1_0_0) : (⟨S5x5x128x128, .f32⟩ : BufTy).Contents (Elt F) → (⟨S1x1x128x128, .f32⟩ : BufTy).Contents (Elt F)),
    reshape main_v46 main_v47 rfl shapeCasts_S1x1x128x128_S128x128,
    unary main_v47 main_v48 (broadcastInDim S1x128x128 ![1, 2] bcast_S128x128_S1x128x128_1_2 : (⟨S128x128, .f32⟩ : BufTy).Contents (Elt F) → (⟨S1x128x128, .f32⟩ : BufTy).Contents (Elt F)),
    unary main_v48 main_v49 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v45 main_v49 main_v50 (mulf : (⟨S256x128x128, .f32⟩ : BufTy).Contents (Elt F) → (⟨S256x128x128, .f32⟩ : BufTy).Contents (Elt F) → (⟨S256x128x128, .f32⟩ : BufTy).Contents (Elt F)),
    binary main_v44 main_v50 main_v51 (addf : (⟨S256x128x128, .f32⟩ : BufTy).Contents (Elt F) → (⟨S256x128x128, .f32⟩ : BufTy).Contents (Elt F) → (⟨S256x128x128, .f32⟩ : BufTy).Contents (Elt F)),
    unary main_v0 main_v52 ((extractStridedSlice S256x128x128 ![0, 1, 2] · slices_S256x132x132_S256x128x128_0_1_2) : (⟨S256x132x132, .f32⟩ : BufTy).Contents (Elt F) → (⟨S256x128x128, .f32⟩ : BufTy).Contents (Elt F)),
    unary main_v1 main_v53 ((extractStridedSlice S1x1x128x128 ![1, 2, 0, 0] · slices_S5x5x128x128_S1x1x128x128_1_2_0_0) : (⟨S5x5x128x128, .f32⟩ : BufTy).Contents (Elt F) → (⟨S1x1x128x128, .f32⟩ : BufTy).Contents (Elt F)),
    reshape main_v53 main_v54 rfl shapeCasts_S1x1x128x128_S128x128,
    unary main_v54 main_v55 (broadcastInDim S1x128x128 ![1, 2] bcast_S128x128_S1x128x128_1_2 : (⟨S128x128, .f32⟩ : BufTy).Contents (Elt F) → (⟨S1x128x128, .f32⟩ : BufTy).Contents (Elt F)),
    unary main_v55 main_v56 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v52 main_v56 main_v57 (mulf : (⟨S256x128x128, .f32⟩ : BufTy).Contents (Elt F) → (⟨S256x128x128, .f32⟩ : BufTy).Contents (Elt F) → (⟨S256x128x128, .f32⟩ : BufTy).Contents (Elt F)) ]

/-- @main's operations 62 … 121 (through the seventeenth tap's plane of weights); the called bordering function's two operations stand at its call. -/
abbrev ops1 : List (HloOp τ sig (Elt F)) :=
  [ binary main_v51 main_v57 main_v58 (addf : (⟨S256x128x128, .f32⟩ : BufTy).Contents (Elt F) → (⟨S256x128x128, .f32⟩ : BufTy).Contents (Elt F) → (⟨S256x128x128, .f32⟩ : BufTy).Contents (Elt F)),
    unary main_v0 main_v59 ((extractStridedSlice S256x128x128 ![0, 1, 3] · slices_S256x132x132_S256x128x128_0_1_3) : (⟨S256x132x132, .f32⟩ : BufTy).Contents (Elt F) → (⟨S256x128x128, .f32⟩ : BufTy).Contents (Elt F)),
    unary main_v1 main_v60 ((extractStridedSlice S1x1x128x128 ![1, 3, 0, 0] · slices_S5x5x128x128_S1x1x128x128_1_3_0_0) : (⟨S5x5x128x128, .f32⟩ : BufTy).Contents (Elt F) → (⟨S1x1x128x128, .f32⟩ : BufTy).Contents (Elt F)),
    reshape main_v60 main_v61 rfl shapeCasts_S1x1x128x128_S128x128,
    unary main_v61 main_v62 (broadcastInDim S1x128x128 ![1, 2] bcast_S128x128_S1x128x128_1_2 : (⟨S128x128, .f32⟩ : BufTy).Contents (Elt F) → (⟨S1x128x128, .f32⟩ : BufTy).Contents (Elt F)),
    unary main_v62 main_v63 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v59 main_v63 main_v64 (mulf : (⟨S256x128x128, .f32⟩ : BufTy).Contents (Elt F) → (⟨S256x128x128, .f32⟩ : BufTy).Contents (Elt F) → (⟨S256x128x128, .f32⟩ : BufTy).Contents (Elt F)),
    binary main_v58 main_v64 main_v65 (addf : (⟨S256x128x128, .f32⟩ : BufTy).Contents (Elt F) → (⟨S256x128x128, .f32⟩ : BufTy).Contents (Elt F) → (⟨S256x128x128, .f32⟩ : BufTy).Contents (Elt F)),
    unary main_v0 main_v66 ((extractStridedSlice S256x128x128 ![0, 1, 4] · slices_S256x132x132_S256x128x128_0_1_4) : (⟨S256x132x132, .f32⟩ : BufTy).Contents (Elt F) → (⟨S256x128x128, .f32⟩ : BufTy).Contents (Elt F)),
    unary main_v1 main_v67 ((extractStridedSlice S1x1x128x128 ![1, 4, 0, 0] · slices_S5x5x128x128_S1x1x128x128_1_4_0_0) : (⟨S5x5x128x128, .f32⟩ : BufTy).Contents (Elt F) → (⟨S1x1x128x128, .f32⟩ : BufTy).Contents (Elt F)),
    reshape main_v67 main_v68 rfl shapeCasts_S1x1x128x128_S128x128,
    unary main_v68 main_v69 (broadcastInDim S1x128x128 ![1, 2] bcast_S128x128_S1x128x128_1_2 : (⟨S128x128, .f32⟩ : BufTy).Contents (Elt F) → (⟨S1x128x128, .f32⟩ : BufTy).Contents (Elt F)),
    unary main_v69 main_v70 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v66 main_v70 main_v71 (mulf : (⟨S256x128x128, .f32⟩ : BufTy).Contents (Elt F) → (⟨S256x128x128, .f32⟩ : BufTy).Contents (Elt F) → (⟨S256x128x128, .f32⟩ : BufTy).Contents (Elt F)),
    binary main_v65 main_v71 main_v72 (addf : (⟨S256x128x128, .f32⟩ : BufTy).Contents (Elt F) → (⟨S256x128x128, .f32⟩ : BufTy).Contents (Elt F) → (⟨S256x128x128, .f32⟩ : BufTy).Contents (Elt F)),
    unary main_v0 main_v73 ((extractStridedSlice S256x128x128 ![0, 2, 0] · slices_S256x132x132_S256x128x128_0_2_0) : (⟨S256x132x132, .f32⟩ : BufTy).Contents (Elt F) → (⟨S256x128x128, .f32⟩ : BufTy).Contents (Elt F)),
    unary main_v1 main_v74 ((extractStridedSlice S1x1x128x128 ![2, 0, 0, 0] · slices_S5x5x128x128_S1x1x128x128_2_0_0_0) : (⟨S5x5x128x128, .f32⟩ : BufTy).Contents (Elt F) → (⟨S1x1x128x128, .f32⟩ : BufTy).Contents (Elt F)),
    reshape main_v74 main_v75 rfl shapeCasts_S1x1x128x128_S128x128,
    unary main_v75 main_v76 (broadcastInDim S1x128x128 ![1, 2] bcast_S128x128_S1x128x128_1_2 : (⟨S128x128, .f32⟩ : BufTy).Contents (Elt F) → (⟨S1x128x128, .f32⟩ : BufTy).Contents (Elt F)),
    unary main_v76 main_v77 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v73 main_v77 main_v78 (mulf : (⟨S256x128x128, .f32⟩ : BufTy).Contents (Elt F) → (⟨S256x128x128, .f32⟩ : BufTy).Contents (Elt F) → (⟨S256x128x128, .f32⟩ : BufTy).Contents (Elt F)),
    binary main_v72 main_v78 main_v79 (addf : (⟨S256x128x128, .f32⟩ : BufTy).Contents (Elt F) → (⟨S256x128x128, .f32⟩ : BufTy).Contents (Elt F) → (⟨S256x128x128, .f32⟩ : BufTy).Contents (Elt F)),
    unary main_v0 main_v80 ((extractStridedSlice S256x128x128 ![0, 2, 1] · slices_S256x132x132_S256x128x128_0_2_1) : (⟨S256x132x132, .f32⟩ : BufTy).Contents (Elt F) → (⟨S256x128x128, .f32⟩ : BufTy).Contents (Elt F)),
    unary main_v1 main_v81 ((extractStridedSlice S1x1x128x128 ![2, 1, 0, 0] · slices_S5x5x128x128_S1x1x128x128_2_1_0_0) : (⟨S5x5x128x128, .f32⟩ : BufTy).Contents (Elt F) → (⟨S1x1x128x128, .f32⟩ : BufTy).Contents (Elt F)),
    reshape main_v81 main_v82 rfl shapeCasts_S1x1x128x128_S128x128,
    unary main_v82 main_v83 (broadcastInDim S1x128x128 ![1, 2] bcast_S128x128_S1x128x128_1_2 : (⟨S128x128, .f32⟩ : BufTy).Contents (Elt F) → (⟨S1x128x128, .f32⟩ : BufTy).Contents (Elt F)),
    unary main_v83 main_v84 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v80 main_v84 main_v85 (mulf : (⟨S256x128x128, .f32⟩ : BufTy).Contents (Elt F) → (⟨S256x128x128, .f32⟩ : BufTy).Contents (Elt F) → (⟨S256x128x128, .f32⟩ : BufTy).Contents (Elt F)),
    binary main_v79 main_v85 main_v86 (addf : (⟨S256x128x128, .f32⟩ : BufTy).Contents (Elt F) → (⟨S256x128x128, .f32⟩ : BufTy).Contents (Elt F) → (⟨S256x128x128, .f32⟩ : BufTy).Contents (Elt F)),
    unary main_v0 main_v87 ((extractStridedSlice S256x128x128 ![0, 2, 2] · slices_S256x132x132_S256x128x128_0_2_2) : (⟨S256x132x132, .f32⟩ : BufTy).Contents (Elt F) → (⟨S256x128x128, .f32⟩ : BufTy).Contents (Elt F)),
    unary main_v1 main_v88 ((extractStridedSlice S1x1x128x128 ![2, 2, 0, 0] · slices_S5x5x128x128_S1x1x128x128_2_2_0_0) : (⟨S5x5x128x128, .f32⟩ : BufTy).Contents (Elt F) → (⟨S1x1x128x128, .f32⟩ : BufTy).Contents (Elt F)),
    reshape main_v88 main_v89 rfl shapeCasts_S1x1x128x128_S128x128,
    unary main_v89 main_v90 (broadcastInDim S1x128x128 ![1, 2] bcast_S128x128_S1x128x128_1_2 : (⟨S128x128, .f32⟩ : BufTy).Contents (Elt F) → (⟨S1x128x128, .f32⟩ : BufTy).Contents (Elt F)),
    unary main_v90 main_v91 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v87 main_v91 main_v92 (mulf : (⟨S256x128x128, .f32⟩ : BufTy).Contents (Elt F) → (⟨S256x128x128, .f32⟩ : BufTy).Contents (Elt F) → (⟨S256x128x128, .f32⟩ : BufTy).Contents (Elt F)),
    binary main_v86 main_v92 main_v93 (addf : (⟨S256x128x128, .f32⟩ : BufTy).Contents (Elt F) → (⟨S256x128x128, .f32⟩ : BufTy).Contents (Elt F) → (⟨S256x128x128, .f32⟩ : BufTy).Contents (Elt F)),
    unary main_v0 main_v94 ((extractStridedSlice S256x128x128 ![0, 2, 3] · slices_S256x132x132_S256x128x128_0_2_3) : (⟨S256x132x132, .f32⟩ : BufTy).Contents (Elt F) → (⟨S256x128x128, .f32⟩ : BufTy).Contents (Elt F)),
    unary main_v1 main_v95 ((extractStridedSlice S1x1x128x128 ![2, 3, 0, 0] · slices_S5x5x128x128_S1x1x128x128_2_3_0_0) : (⟨S5x5x128x128, .f32⟩ : BufTy).Contents (Elt F) → (⟨S1x1x128x128, .f32⟩ : BufTy).Contents (Elt F)),
    reshape main_v95 main_v96 rfl shapeCasts_S1x1x128x128_S128x128,
    unary main_v96 main_v97 (broadcastInDim S1x128x128 ![1, 2] bcast_S128x128_S1x128x128_1_2 : (⟨S128x128, .f32⟩ : BufTy).Contents (Elt F) → (⟨S1x128x128, .f32⟩ : BufTy).Contents (Elt F)),
    unary main_v97 main_v98 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v94 main_v98 main_v99 (mulf : (⟨S256x128x128, .f32⟩ : BufTy).Contents (Elt F) → (⟨S256x128x128, .f32⟩ : BufTy).Contents (Elt F) → (⟨S256x128x128, .f32⟩ : BufTy).Contents (Elt F)),
    binary main_v93 main_v99 main_v100 (addf : (⟨S256x128x128, .f32⟩ : BufTy).Contents (Elt F) → (⟨S256x128x128, .f32⟩ : BufTy).Contents (Elt F) → (⟨S256x128x128, .f32⟩ : BufTy).Contents (Elt F)),
    unary main_v0 main_v101 ((extractStridedSlice S256x128x128 ![0, 2, 4] · slices_S256x132x132_S256x128x128_0_2_4) : (⟨S256x132x132, .f32⟩ : BufTy).Contents (Elt F) → (⟨S256x128x128, .f32⟩ : BufTy).Contents (Elt F)),
    unary main_v1 main_v102 ((extractStridedSlice S1x1x128x128 ![2, 4, 0, 0] · slices_S5x5x128x128_S1x1x128x128_2_4_0_0) : (⟨S5x5x128x128, .f32⟩ : BufTy).Contents (Elt F) → (⟨S1x1x128x128, .f32⟩ : BufTy).Contents (Elt F)),
    reshape main_v102 main_v103 rfl shapeCasts_S1x1x128x128_S128x128,
    unary main_v103 main_v104 (broadcastInDim S1x128x128 ![1, 2] bcast_S128x128_S1x128x128_1_2 : (⟨S128x128, .f32⟩ : BufTy).Contents (Elt F) → (⟨S1x128x128, .f32⟩ : BufTy).Contents (Elt F)),
    unary main_v104 main_v105 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v101 main_v105 main_v106 (mulf : (⟨S256x128x128, .f32⟩ : BufTy).Contents (Elt F) → (⟨S256x128x128, .f32⟩ : BufTy).Contents (Elt F) → (⟨S256x128x128, .f32⟩ : BufTy).Contents (Elt F)),
    binary main_v100 main_v106 main_v107 (addf : (⟨S256x128x128, .f32⟩ : BufTy).Contents (Elt F) → (⟨S256x128x128, .f32⟩ : BufTy).Contents (Elt F) → (⟨S256x128x128, .f32⟩ : BufTy).Contents (Elt F)),
    unary main_v0 main_v108 ((extractStridedSlice S256x128x128 ![0, 3, 0] · slices_S256x132x132_S256x128x128_0_3_0) : (⟨S256x132x132, .f32⟩ : BufTy).Contents (Elt F) → (⟨S256x128x128, .f32⟩ : BufTy).Contents (Elt F)),
    unary main_v1 main_v109 ((extractStridedSlice S1x1x128x128 ![3, 0, 0, 0] · slices_S5x5x128x128_S1x1x128x128_3_0_0_0) : (⟨S5x5x128x128, .f32⟩ : BufTy).Contents (Elt F) → (⟨S1x1x128x128, .f32⟩ : BufTy).Contents (Elt F)),
    reshape main_v109 main_v110 rfl shapeCasts_S1x1x128x128_S128x128,
    unary main_v110 main_v111 (broadcastInDim S1x128x128 ![1, 2] bcast_S128x128_S1x128x128_1_2 : (⟨S128x128, .f32⟩ : BufTy).Contents (Elt F) → (⟨S1x128x128, .f32⟩ : BufTy).Contents (Elt F)),
    unary main_v111 main_v112 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v108 main_v112 main_v113 (mulf : (⟨S256x128x128, .f32⟩ : BufTy).Contents (Elt F) → (⟨S256x128x128, .f32⟩ : BufTy).Contents (Elt F) → (⟨S256x128x128, .f32⟩ : BufTy).Contents (Elt F)),
    binary main_v107 main_v113 main_v114 (addf : (⟨S256x128x128, .f32⟩ : BufTy).Contents (Elt F) → (⟨S256x128x128, .f32⟩ : BufTy).Contents (Elt F) → (⟨S256x128x128, .f32⟩ : BufTy).Contents (Elt F)),
    unary main_v0 main_v115 ((extractStridedSlice S256x128x128 ![0, 3, 1] · slices_S256x132x132_S256x128x128_0_3_1) : (⟨S256x132x132, .f32⟩ : BufTy).Contents (Elt F) → (⟨S256x128x128, .f32⟩ : BufTy).Contents (Elt F)),
    unary main_v1 main_v116 ((extractStridedSlice S1x1x128x128 ![3, 1, 0, 0] · slices_S5x5x128x128_S1x1x128x128_3_1_0_0) : (⟨S5x5x128x128, .f32⟩ : BufTy).Contents (Elt F) → (⟨S1x1x128x128, .f32⟩ : BufTy).Contents (Elt F)),
    reshape main_v116 main_v117 rfl shapeCasts_S1x1x128x128_S128x128 ]

/-- @main's operations 122 … 181 (through the last of the 25 taps); the called bordering function's two operations stand at its call. -/
abbrev ops2 : List (HloOp τ sig (Elt F)) :=
  [ unary main_v117 main_v118 (broadcastInDim S1x128x128 ![1, 2] bcast_S128x128_S1x128x128_1_2 : (⟨S128x128, .f32⟩ : BufTy).Contents (Elt F) → (⟨S1x128x128, .f32⟩ : BufTy).Contents (Elt F)),
    unary main_v118 main_v119 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v115 main_v119 main_v120 (mulf : (⟨S256x128x128, .f32⟩ : BufTy).Contents (Elt F) → (⟨S256x128x128, .f32⟩ : BufTy).Contents (Elt F) → (⟨S256x128x128, .f32⟩ : BufTy).Contents (Elt F)),
    binary main_v114 main_v120 main_v121 (addf : (⟨S256x128x128, .f32⟩ : BufTy).Contents (Elt F) → (⟨S256x128x128, .f32⟩ : BufTy).Contents (Elt F) → (⟨S256x128x128, .f32⟩ : BufTy).Contents (Elt F)),
    unary main_v0 main_v122 ((extractStridedSlice S256x128x128 ![0, 3, 2] · slices_S256x132x132_S256x128x128_0_3_2) : (⟨S256x132x132, .f32⟩ : BufTy).Contents (Elt F) → (⟨S256x128x128, .f32⟩ : BufTy).Contents (Elt F)),
    unary main_v1 main_v123 ((extractStridedSlice S1x1x128x128 ![3, 2, 0, 0] · slices_S5x5x128x128_S1x1x128x128_3_2_0_0) : (⟨S5x5x128x128, .f32⟩ : BufTy).Contents (Elt F) → (⟨S1x1x128x128, .f32⟩ : BufTy).Contents (Elt F)),
    reshape main_v123 main_v124 rfl shapeCasts_S1x1x128x128_S128x128,
    unary main_v124 main_v125 (broadcastInDim S1x128x128 ![1, 2] bcast_S128x128_S1x128x128_1_2 : (⟨S128x128, .f32⟩ : BufTy).Contents (Elt F) → (⟨S1x128x128, .f32⟩ : BufTy).Contents (Elt F)),
    unary main_v125 main_v126 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v122 main_v126 main_v127 (mulf : (⟨S256x128x128, .f32⟩ : BufTy).Contents (Elt F) → (⟨S256x128x128, .f32⟩ : BufTy).Contents (Elt F) → (⟨S256x128x128, .f32⟩ : BufTy).Contents (Elt F)),
    binary main_v121 main_v127 main_v128 (addf : (⟨S256x128x128, .f32⟩ : BufTy).Contents (Elt F) → (⟨S256x128x128, .f32⟩ : BufTy).Contents (Elt F) → (⟨S256x128x128, .f32⟩ : BufTy).Contents (Elt F)),
    unary main_v0 main_v129 ((extractStridedSlice S256x128x128 ![0, 3, 3] · slices_S256x132x132_S256x128x128_0_3_3) : (⟨S256x132x132, .f32⟩ : BufTy).Contents (Elt F) → (⟨S256x128x128, .f32⟩ : BufTy).Contents (Elt F)),
    unary main_v1 main_v130 ((extractStridedSlice S1x1x128x128 ![3, 3, 0, 0] · slices_S5x5x128x128_S1x1x128x128_3_3_0_0) : (⟨S5x5x128x128, .f32⟩ : BufTy).Contents (Elt F) → (⟨S1x1x128x128, .f32⟩ : BufTy).Contents (Elt F)),
    reshape main_v130 main_v131 rfl shapeCasts_S1x1x128x128_S128x128,
    unary main_v131 main_v132 (broadcastInDim S1x128x128 ![1, 2] bcast_S128x128_S1x128x128_1_2 : (⟨S128x128, .f32⟩ : BufTy).Contents (Elt F) → (⟨S1x128x128, .f32⟩ : BufTy).Contents (Elt F)),
    unary main_v132 main_v133 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v129 main_v133 main_v134 (mulf : (⟨S256x128x128, .f32⟩ : BufTy).Contents (Elt F) → (⟨S256x128x128, .f32⟩ : BufTy).Contents (Elt F) → (⟨S256x128x128, .f32⟩ : BufTy).Contents (Elt F)),
    binary main_v128 main_v134 main_v135 (addf : (⟨S256x128x128, .f32⟩ : BufTy).Contents (Elt F) → (⟨S256x128x128, .f32⟩ : BufTy).Contents (Elt F) → (⟨S256x128x128, .f32⟩ : BufTy).Contents (Elt F)),
    unary main_v0 main_v136 ((extractStridedSlice S256x128x128 ![0, 3, 4] · slices_S256x132x132_S256x128x128_0_3_4) : (⟨S256x132x132, .f32⟩ : BufTy).Contents (Elt F) → (⟨S256x128x128, .f32⟩ : BufTy).Contents (Elt F)),
    unary main_v1 main_v137 ((extractStridedSlice S1x1x128x128 ![3, 4, 0, 0] · slices_S5x5x128x128_S1x1x128x128_3_4_0_0) : (⟨S5x5x128x128, .f32⟩ : BufTy).Contents (Elt F) → (⟨S1x1x128x128, .f32⟩ : BufTy).Contents (Elt F)),
    reshape main_v137 main_v138 rfl shapeCasts_S1x1x128x128_S128x128,
    unary main_v138 main_v139 (broadcastInDim S1x128x128 ![1, 2] bcast_S128x128_S1x128x128_1_2 : (⟨S128x128, .f32⟩ : BufTy).Contents (Elt F) → (⟨S1x128x128, .f32⟩ : BufTy).Contents (Elt F)),
    unary main_v139 main_v140 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v136 main_v140 main_v141 (mulf : (⟨S256x128x128, .f32⟩ : BufTy).Contents (Elt F) → (⟨S256x128x128, .f32⟩ : BufTy).Contents (Elt F) → (⟨S256x128x128, .f32⟩ : BufTy).Contents (Elt F)),
    binary main_v135 main_v141 main_v142 (addf : (⟨S256x128x128, .f32⟩ : BufTy).Contents (Elt F) → (⟨S256x128x128, .f32⟩ : BufTy).Contents (Elt F) → (⟨S256x128x128, .f32⟩ : BufTy).Contents (Elt F)),
    unary main_v0 main_v143 ((extractStridedSlice S256x128x128 ![0, 4, 0] · slices_S256x132x132_S256x128x128_0_4_0) : (⟨S256x132x132, .f32⟩ : BufTy).Contents (Elt F) → (⟨S256x128x128, .f32⟩ : BufTy).Contents (Elt F)),
    unary main_v1 main_v144 ((extractStridedSlice S1x1x128x128 ![4, 0, 0, 0] · slices_S5x5x128x128_S1x1x128x128_4_0_0_0) : (⟨S5x5x128x128, .f32⟩ : BufTy).Contents (Elt F) → (⟨S1x1x128x128, .f32⟩ : BufTy).Contents (Elt F)),
    reshape main_v144 main_v145 rfl shapeCasts_S1x1x128x128_S128x128,
    unary main_v145 main_v146 (broadcastInDim S1x128x128 ![1, 2] bcast_S128x128_S1x128x128_1_2 : (⟨S128x128, .f32⟩ : BufTy).Contents (Elt F) → (⟨S1x128x128, .f32⟩ : BufTy).Contents (Elt F)),
    unary main_v146 main_v147 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v143 main_v147 main_v148 (mulf : (⟨S256x128x128, .f32⟩ : BufTy).Contents (Elt F) → (⟨S256x128x128, .f32⟩ : BufTy).Contents (Elt F) → (⟨S256x128x128, .f32⟩ : BufTy).Contents (Elt F)),
    binary main_v142 main_v148 main_v149 (addf : (⟨S256x128x128, .f32⟩ : BufTy).Contents (Elt F) → (⟨S256x128x128, .f32⟩ : BufTy).Contents (Elt F) → (⟨S256x128x128, .f32⟩ : BufTy).Contents (Elt F)),
    unary main_v0 main_v150 ((extractStridedSlice S256x128x128 ![0, 4, 1] · slices_S256x132x132_S256x128x128_0_4_1) : (⟨S256x132x132, .f32⟩ : BufTy).Contents (Elt F) → (⟨S256x128x128, .f32⟩ : BufTy).Contents (Elt F)),
    unary main_v1 main_v151 ((extractStridedSlice S1x1x128x128 ![4, 1, 0, 0] · slices_S5x5x128x128_S1x1x128x128_4_1_0_0) : (⟨S5x5x128x128, .f32⟩ : BufTy).Contents (Elt F) → (⟨S1x1x128x128, .f32⟩ : BufTy).Contents (Elt F)),
    reshape main_v151 main_v152 rfl shapeCasts_S1x1x128x128_S128x128,
    unary main_v152 main_v153 (broadcastInDim S1x128x128 ![1, 2] bcast_S128x128_S1x128x128_1_2 : (⟨S128x128, .f32⟩ : BufTy).Contents (Elt F) → (⟨S1x128x128, .f32⟩ : BufTy).Contents (Elt F)),
    unary main_v153 main_v154 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v150 main_v154 main_v155 (mulf : (⟨S256x128x128, .f32⟩ : BufTy).Contents (Elt F) → (⟨S256x128x128, .f32⟩ : BufTy).Contents (Elt F) → (⟨S256x128x128, .f32⟩ : BufTy).Contents (Elt F)),
    binary main_v149 main_v155 main_v156 (addf : (⟨S256x128x128, .f32⟩ : BufTy).Contents (Elt F) → (⟨S256x128x128, .f32⟩ : BufTy).Contents (Elt F) → (⟨S256x128x128, .f32⟩ : BufTy).Contents (Elt F)),
    unary main_v0 main_v157 ((extractStridedSlice S256x128x128 ![0, 4, 2] · slices_S256x132x132_S256x128x128_0_4_2) : (⟨S256x132x132, .f32⟩ : BufTy).Contents (Elt F) → (⟨S256x128x128, .f32⟩ : BufTy).Contents (Elt F)),
    unary main_v1 main_v158 ((extractStridedSlice S1x1x128x128 ![4, 2, 0, 0] · slices_S5x5x128x128_S1x1x128x128_4_2_0_0) : (⟨S5x5x128x128, .f32⟩ : BufTy).Contents (Elt F) → (⟨S1x1x128x128, .f32⟩ : BufTy).Contents (Elt F)),
    reshape main_v158 main_v159 rfl shapeCasts_S1x1x128x128_S128x128,
    unary main_v159 main_v160 (broadcastInDim S1x128x128 ![1, 2] bcast_S128x128_S1x128x128_1_2 : (⟨S128x128, .f32⟩ : BufTy).Contents (Elt F) → (⟨S1x128x128, .f32⟩ : BufTy).Contents (Elt F)),
    unary main_v160 main_v161 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v157 main_v161 main_v162 (mulf : (⟨S256x128x128, .f32⟩ : BufTy).Contents (Elt F) → (⟨S256x128x128, .f32⟩ : BufTy).Contents (Elt F) → (⟨S256x128x128, .f32⟩ : BufTy).Contents (Elt F)),
    binary main_v156 main_v162 main_v163 (addf : (⟨S256x128x128, .f32⟩ : BufTy).Contents (Elt F) → (⟨S256x128x128, .f32⟩ : BufTy).Contents (Elt F) → (⟨S256x128x128, .f32⟩ : BufTy).Contents (Elt F)),
    unary main_v0 main_v164 ((extractStridedSlice S256x128x128 ![0, 4, 3] · slices_S256x132x132_S256x128x128_0_4_3) : (⟨S256x132x132, .f32⟩ : BufTy).Contents (Elt F) → (⟨S256x128x128, .f32⟩ : BufTy).Contents (Elt F)),
    unary main_v1 main_v165 ((extractStridedSlice S1x1x128x128 ![4, 3, 0, 0] · slices_S5x5x128x128_S1x1x128x128_4_3_0_0) : (⟨S5x5x128x128, .f32⟩ : BufTy).Contents (Elt F) → (⟨S1x1x128x128, .f32⟩ : BufTy).Contents (Elt F)),
    reshape main_v165 main_v166 rfl shapeCasts_S1x1x128x128_S128x128,
    unary main_v166 main_v167 (broadcastInDim S1x128x128 ![1, 2] bcast_S128x128_S1x128x128_1_2 : (⟨S128x128, .f32⟩ : BufTy).Contents (Elt F) → (⟨S1x128x128, .f32⟩ : BufTy).Contents (Elt F)),
    unary main_v167 main_v168 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v164 main_v168 main_v169 (mulf : (⟨S256x128x128, .f32⟩ : BufTy).Contents (Elt F) → (⟨S256x128x128, .f32⟩ : BufTy).Contents (Elt F) → (⟨S256x128x128, .f32⟩ : BufTy).Contents (Elt F)),
    binary main_v163 main_v169 main_v170 (addf : (⟨S256x128x128, .f32⟩ : BufTy).Contents (Elt F) → (⟨S256x128x128, .f32⟩ : BufTy).Contents (Elt F) → (⟨S256x128x128, .f32⟩ : BufTy).Contents (Elt F)),
    unary main_v0 main_v171 ((extractStridedSlice S256x128x128 ![0, 4, 4] · slices_S256x132x132_S256x128x128_0_4_4) : (⟨S256x132x132, .f32⟩ : BufTy).Contents (Elt F) → (⟨S256x128x128, .f32⟩ : BufTy).Contents (Elt F)),
    unary main_v1 main_v172 ((extractStridedSlice S1x1x128x128 ![4, 4, 0, 0] · slices_S5x5x128x128_S1x1x128x128_4_4_0_0) : (⟨S5x5x128x128, .f32⟩ : BufTy).Contents (Elt F) → (⟨S1x1x128x128, .f32⟩ : BufTy).Contents (Elt F)),
    reshape main_v172 main_v173 rfl shapeCasts_S1x1x128x128_S128x128,
    unary main_v173 main_v174 (broadcastInDim S1x128x128 ![1, 2] bcast_S128x128_S1x128x128_1_2 : (⟨S128x128, .f32⟩ : BufTy).Contents (Elt F) → (⟨S1x128x128, .f32⟩ : BufTy).Contents (Elt F)),
    unary main_v174 main_v175 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v171 main_v175 main_v176 (mulf : (⟨S256x128x128, .f32⟩ : BufTy).Contents (Elt F) → (⟨S256x128x128, .f32⟩ : BufTy).Contents (Elt F) → (⟨S256x128x128, .f32⟩ : BufTy).Contents (Elt F)),
    binary main_v170 main_v176 main_v177 (addf : (⟨S256x128x128, .f32⟩ : BufTy).Contents (Elt F) → (⟨S256x128x128, .f32⟩ : BufTy).Contents (Elt F) → (⟨S256x128x128, .f32⟩ : BufTy).Contents (Elt F)) ]

/-- @main's operations 182 … 188 (the steps, the image's own pixels, the clamp); the called bordering function's two operations stand at its call. -/
abbrev ops3 : List (HloOp τ sig (Elt F)) :=
  [ unary main_arg2 main_v178 (broadcastInDim S256x1x1 ![0] bcast_S256_S256x1x1_0 : (⟨S256, .f32⟩ : BufTy).Contents (Elt F) → (⟨S256x1x1, .f32⟩ : BufTy).Contents (Elt F)),
    unary main_v178 main_v179 (broadcastInDim S256x128x128 ![0, 1, 2] bcast_S256x1x1_S256x128x128_0_1_2 : (⟨S256x1x1, .f32⟩ : BufTy).Contents (Elt F) → (⟨S256x128x128, .f32⟩ : BufTy).Contents (Elt F)),
    binary main_v177 main_v179 main_v180 (mulf : (⟨S256x128x128, .f32⟩ : BufTy).Contents (Elt F) → (⟨S256x128x128, .f32⟩ : BufTy).Contents (Elt F) → (⟨S256x128x128, .f32⟩ : BufTy).Contents (Elt F)),
    binary main_arg0 main_v180 main_v181 (addf : (⟨S256x128x128, .f32⟩ : BufTy).Contents (Elt F) → (⟨S256x128x128, .f32⟩ : BufTy).Contents (Elt F) → (⟨S256x128x128, .f32⟩ : BufTy).Contents (Elt F)),
    nullary main_cst_0 (constant S_ .f32 0x00000000#32),
    unary main_cst_0 main_v182 (broadcastInDim S256x128x128 ![] bcast_S_S256x128x128 : (⟨S_, .f32⟩ : BufTy).Contents (Elt F) → (⟨S256x128x128, .f32⟩ : BufTy).Contents (Elt F)),
    binary main_v181 main_v182 main_v183 (maximumf : (⟨S256x128x128, .f32⟩ : BufTy).Contents (Elt F) → (⟨S256x128x128, .f32⟩ : BufTy).Contents (Elt F) → (⟨S256x128x128, .f32⟩ : BufTy).Contents (Elt F)) ]

/-- All of @main's 188 operations, in order. -/
abbrev ops : List (HloOp τ sig (Elt F)) := ops0 ++ (ops1 ++ (ops2 ++ ops3))

set_option maxRecDepth 8192 in
/-- Window 0 of @main's text is its operations run in order. -/
theorem main_part0_eq (c : Dev nD) : main_part0 (F := F) c = seq ops0 := rfl

set_option maxRecDepth 8192 in
/-- Window 1 of @main's text is its operations run in order. -/
theorem main_part1_eq (c : Dev nD) : main_part1 (F := F) c = seq ops1 := rfl

set_option maxRecDepth 8192 in
/-- Window 2 of @main's text is its operations run in order. -/
theorem main_part2_eq (c : Dev nD) : main_part2 (F := F) c = seq ops2 := rfl

set_option maxRecDepth 8192 in
/-- Window 3 of @main's text is its operations run in order. -/
theorem main_part3_eq (c : Dev nD) : main_part3 (F := F) c = seq ops3 := rfl

set_option maxRecDepth 8192 in
/-- @main is its 188 operations run in order: its four windows one after the other. -/
theorem main_eq (c : Dev nD) : main (F := F) c = seq ops := by
  simp only [ops, seq_append, ← main_part0_eq c, ← main_part1_eq c, ← main_part2_eq c, ← main_part3_eq c]
  rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of window 0 touches TensorCore buffers only. -/
theorem ops0_sub : (ops0 : List (HloOp τ sig (Elt F))).Forall fun op => op.bufs ⊆ tcRefs τ sig :=
  ⟨nullary_bufs_sub .., unary_bufs_sub .., binary_bufs_sub .., reshape_bufs_sub .., nullary_bufs_sub .., unary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub ..⟩

set_option maxRecDepth 8192 in
/-- No operation of window 0 allocates: each determines its results. -/
theorem ops0_fresh : (ops0 : List (HloOp τ sig (Elt F))).Forall fun op => op.fresh = ∅ := by
  simp only [List.Forall]; repeat' constructor

set_option maxRecDepth 8192 in
/-- Every operation of window 1 touches TensorCore buffers only. -/
theorem ops1_sub : (ops1 : List (HloOp τ sig (Elt F))).Forall fun op => op.bufs ⊆ tcRefs τ sig :=
  ⟨binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub ..⟩

set_option maxRecDepth 8192 in
/-- No operation of window 1 allocates: each determines its results. -/
theorem ops1_fresh : (ops1 : List (HloOp τ sig (Elt F))).Forall fun op => op.fresh = ∅ := by
  simp only [List.Forall]; repeat' constructor

set_option maxRecDepth 8192 in
/-- Every operation of window 2 touches TensorCore buffers only. -/
theorem ops2_sub : (ops2 : List (HloOp τ sig (Elt F))).Forall fun op => op.bufs ⊆ tcRefs τ sig :=
  ⟨unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩

set_option maxRecDepth 8192 in
/-- No operation of window 2 allocates: each determines its results. -/
theorem ops2_fresh : (ops2 : List (HloOp τ sig (Elt F))).Forall fun op => op.fresh = ∅ := by
  simp only [List.Forall]; repeat' constructor

set_option maxRecDepth 8192 in
/-- Every operation of window 3 touches TensorCore buffers only. -/
theorem ops3_sub : (ops3 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub ..⟩

set_option maxRecDepth 8192 in
/-- No operation of window 3 allocates: each determines its results. -/
theorem ops3_fresh : (ops3 : List (HloOp τ sig (Elt F))).Forall fun op => op.fresh = ∅ := by
  simp only [List.Forall]; repeat' constructor

/-- Every operation of @main touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- No operation of @main allocates. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

end Cert.Stencil.HostOps

end
-- ==== Proof.HostRun.lean ====
/-
  The host program's run, and that its result is the specification's `update`.

  @main is a straight line of 188 operations (HostOps.lean), read here window by window: `valK` is what the device's
  buffers hold after the first K windows, and of each window only the few buffers a later window reads are followed.
  The program borders the image, views the weights on four axes, and starts a sum at an image of zeros; each of its 25
  taps is seven operations (two slices, a squeeze, two repeats, a product, a sum), together `stepOn`.  So after the first
  window the sum holds the first seven taps and the eighth tap's product waits to be added; after the second it holds
  sixteen taps, and the seventeenth tap's shifted window and its plane of weights wait; after the third it holds all 25
  (`sumTo`); the last window multiplies by the steps repeated over each plane, adds the image and clamps below at zero
  (`result`).  All this holds for any float values: it is only the program's text read in order.

  At the extended reals one tap, `stepOn`, is `imageTap` of Stencil.lean (`imageTap_eq`: read at a pixel it adds the one
  product `P (i + d, j + e) · K (5 d + e, 128 i + j)`), so `result`, read at a pixel, is `pixel` of the left fold `accum`,
  term for term (`result_eq`): nothing is regrouped and no law of the extended reals is used.
-/
import proofs.«145319_j87746181857881_1_alg».proof.Proof.HostOps
import proofs.«145319_j87746181857881_1_alg».proof.Proof.Stencil
import Idealize.ShloMosaic.Lib.Pipeline.Frame

noncomputable section

namespace Cert.Stencil.HostRun

open Cert.ReferenceIdeal Cert.ReferenceIdeal.Gen Idealize.ShloMosaic Idealize.ShloMosaic.TcCoe Idealize.SL.Sem Idealize.ShloMosaic.StableHlo
open Idealize.ShloMosaic.ValueIdx Cert.Stencil Cert.Stencil.HostOps

/-! ## What the windows compute, as functions of the launched arrays -/

section AnyFloats
variable {F : FTy → Type} [FloatOps F]

/-- The image with its border, as the host program builds it (the same term as the kernel program's). -/
abbrev bordered (f : FVec F S256x128x128 .f32) : FVec F S256x132x132 .f32 :=
  pad S256x132x132 ![0, 2, 2] ![0, 2, 2] ![0, 0, 0] f (sitofp (F := F) .f32 (constantI S_ 32 0#32))
    pads_S256x128x128_S256x132x132_000_220_220 h_S_

/-- The weights on four axes: tap row, tap column, pixel row, pixel column. -/
abbrev wts4 (K : FVec F S25x16384 .f32) : FVec F S5x5x128x128 .f32 :=
  shapeCast S5x5x128x128 K shapeCasts_S25x16384_S5x5x128x128

/-- The image of zeros the sum starts from. -/
abbrev zeroImg : FVec F S256x128x128 .f32 :=
  broadcastInDim S256x128x128 ![] bcast_S_S256x128x128 (constant (F := F) S_ .f32 0x00000000#32)

/-- A window of the bordered image shifted at most four rows and columns stays inside it, -/
theorem slices_img (d e : Fin 5) : S256x132x132.Slices ![0, d.val, e.val] S256x128x128 :=
  ⟨rfl, fun a => match a with
    | ⟨0, _⟩ => by show 0 + 256 ≤ 256; omega
    | ⟨1, _⟩ => by show d.val + 128 ≤ 132; have := d.isLt; omega
    | ⟨2, _⟩ => by show e.val + 128 ≤ 132; have := e.isLt; omega⟩

/-- and each of the 5 × 5 taps has its plane of weights. -/
theorem slices_wts (d e : Fin 5) : S5x5x128x128.Slices ![d.val, e.val, 0, 0] S1x1x128x128 :=
  ⟨rfl, fun a => match a with
    | ⟨0, _⟩ => by show d.val + 1 ≤ 5; have := d.isLt; omega
    | ⟨1, _⟩ => by show e.val + 1 ≤ 5; have := e.isLt; omega
    | ⟨2, _⟩ => by show 0 + 128 ≤ 128; omega
    | ⟨3, _⟩ => by show 0 + 128 ≤ 128; omega⟩

/-- ONE TAP as the program spells it: the bordered image's window shifted `d` rows and `e` columns, times tap `(d, e)`'s
    plane of weights squeezed and repeated over the planes, added to the sum so far. -/
def stepOn (P : FVec F S256x132x132 .f32) (K : FVec F S25x16384 .f32) (acc : FVec F S256x128x128 .f32)
    (n : Fin 25 × Fin 5 × Fin 5) : FVec F S256x128x128 .f32 :=
  addf acc (mulf (extractStridedSlice S256x128x128 ![0, n.2.1.val, n.2.2.val] P (slices_img n.2.1 n.2.2))
    (broadcastInDim S256x128x128 ![0, 1, 2] bcast_S1x128x128_S256x128x128_0_1_2
      (broadcastInDim S1x128x128 ![1, 2] bcast_S128x128_S1x128x128_1_2
        (shapeCast S128x128 (extractStridedSlice S1x1x128x128 ![n.2.1.val, n.2.2.val, 0, 0] (wts4 K)
          (slices_wts n.2.1 n.2.2)) shapeCasts_S1x1x128x128_S128x128))))

/-- The sum after the first `n` taps, over whole images. -/
def sumTo (n : ℕ) (f : FVec F S256x128x128 .f32) (K : FVec F S25x16384 .f32) : FVec F S256x128x128 .f32 :=
  (taps.take n).foldl (stepOn (bordered f) K) zeroImg

/-- The program's result: the sum of all 25 taps times the steps repeated over each plane, plus the image, clamped. -/
def result (f : FVec F S256x128x128 .f32) (K : FVec F S25x16384 .f32) (dt : FVec F S256 .f32) :
    FVec F S256x128x128 .f32 :=
  maximumf (addf f (mulf (sumTo 25 f K)
    (broadcastInDim S256x128x128 ![0, 1, 2] bcast_S256x1x1_S256x128x128_0_1_2
      (broadcastInDim S256x1x1 ![0] bcast_S256_S256x1x1_0 dt)))) zeroImg

end AnyFloats

/-- On the extended reals one tap of the program adds, pixel by pixel, the one product of the specification. -/
theorem stepOn_eq (P : FVec Ideal S256x132x132 .f32) (K : FVec Ideal S25x16384 .f32) :
    stepOn P K = fun acc n => imageTap n.2.1.val n.2.2.val n.2.1.isLt n.2.2.isLt P K acc :=
  funext fun acc => funext fun n =>
    imageTap_eq (slices_img n.2.1 n.2.2) (slices_wts n.2.1 n.2.2) shapeCasts_S25x16384_S5x5x128x128
      shapeCasts_S1x1x128x128_S128x128 bcast_S128x128_S1x128x128_1_2 bcast_S1x128x128_S256x128x128_0_1_2 P K acc

/-- THE RESULT IS THE SPECIFICATION'S `update`: at every pixel both are the same 25 additions onto the same zero, times the
    plane's step, plus the image's pixel, clamped. -/
theorem result_eq (f : FVec Ideal S256x128x128 .f32) (K : FVec Ideal S25x16384 .f32) (dt : FVec Ideal S256 .f32) :
    result f K dt = update f (bordered f) K dt := by
  funext q
  show max (f q + sumTo 25 f K q * broadcastInDim (s := S256x1x1) S256x128x128 ![0, 1, 2] _ _ q) _ = _
  rw [steps_apply]
  unfold sumTo
  rw [stepOn_eq]
  unfold update pixel accum taps
  simp only [List.take, List.foldl]
  unfold imageTap
  rfl

/-! ## The buffers, window by window (for any float values) -/

section Windows
variable {F : FTy → Type} [FloatOps F] (V0 : Valuation τ sig (Elt F))

/-- The launched image, weights and steps. -/
abbrev img : FVec F S256x128x128 .f32 := V0 (Proc.devRef .tc main_arg0)
abbrev wts : FVec F S25x16384 .f32 := V0 (Proc.devRef .tc main_arg1)
abbrev stp : FVec F S256 .f32 := V0 (Proc.devRef .tc main_arg2)

/-- The device's buffer contents before the first window. -/
def val0 : Valuation τ sig (Elt F) := V0
theorem val0_arg0 : val0 V0 (no_index (Proc.devRef .tc main_arg0)) = img V0 := rfl
theorem val0_arg1 : val0 V0 (no_index (Proc.devRef .tc main_arg1)) = wts V0 := rfl
theorem val0_arg2 : val0 V0 (no_index (Proc.devRef .tc main_arg2)) = stp V0 := rfl

/-- The device's buffer contents after the first 1 window. -/
def val1 : Valuation τ sig (Elt F) := after (ops0 (F := F)) (val0 V0)
/-- The buffers that window 0's operations write. -/
abbrev ops0_W : List (Ref sig .tc) := [main_c, main_call0_v0, main_v0, main_v1, main_cst, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57]
set_option maxRecDepth 8192 in
theorem ops0_writes : (ops0 : List (HloOp τ sig (Elt F))).Forall fun op =>
    op.writes ⊆ (ops0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 0 does not write keeps its contents through it. -/
theorem val1_keep (r : Ref sig .tc) (h : r ∉ ops0_W) :
    val1 V0 (Proc.devRef .tc r) = val0 V0 (Proc.devRef .tc r) :=
  after_of_writes_sub ops0 _ ops0_writes h
theorem val1_arg0 : val1 V0 (no_index (Proc.devRef .tc main_arg0)) = img V0 :=
  (val1_keep V0 main_arg0 (by decide)).trans (val0_arg0 V0)
theorem val1_arg1 : val1 V0 (no_index (Proc.devRef .tc main_arg1)) = wts V0 :=
  (val1_keep V0 main_arg1 (by decide)).trans (val0_arg1 V0)
theorem val1_arg2 : val1 V0 (no_index (Proc.devRef .tc main_arg2)) = stp V0 :=
  (val1_keep V0 main_arg2 (by decide)).trans (val0_arg2 V0)

set_option maxRecDepth 8192 in
set_option maxHeartbeats 2000000 in
/-- After the first window the bordered image is built, -/
theorem val1_v0 : val1 V0 (no_index (Proc.devRef .tc main_v0)) = bordered (img V0) := by
  unfold val1
  simp only [ops0]
  after_results_simp
  simp only [val0_arg0]
  all_goals (try simp only [TRef.ofBuf, TRef.toBuf, cast_eq])
  all_goals rfl
set_option maxRecDepth 8192 in
set_option maxHeartbeats 2000000 in
/-- the weights are viewed on four axes, -/
theorem val1_v1 : val1 V0 (no_index (Proc.devRef .tc main_v1)) = wts4 (wts V0) := by
  unfold val1
  simp only [ops0]
  after_results_simp
  simp only [val0_arg1]
  all_goals (try simp only [TRef.ofBuf, TRef.toBuf, cast_eq])
  all_goals rfl
set_option maxRecDepth 8192 in
set_option maxHeartbeats 2000000 in
/-- the sum holds the first seven taps, -/
theorem val1_v51 : val1 V0 (no_index (Proc.devRef .tc main_v51)) = sumTo 7 (img V0) (wts V0) := by
  unfold val1
  simp only [ops0]
  after_results_simp
  simp only [val0_arg0, val0_arg1]
  all_goals (try simp only [TRef.ofBuf, TRef.toBuf, cast_eq])
  all_goals rfl
set_option maxRecDepth 8192 in
set_option maxHeartbeats 2000000 in
/-- and the eighth tap's product waits to be added. -/
theorem val1_v57 : val1 V0 (no_index (Proc.devRef .tc main_v57))
    = mulf (extractStridedSlice S256x128x128 ![0, 1, 2] (bordered (img V0)) slices_S256x132x132_S256x128x128_0_1_2)
        (broadcastInDim S256x128x128 ![0, 1, 2] bcast_S1x128x128_S256x128x128_0_1_2
          (broadcastInDim S1x128x128 ![1, 2] bcast_S128x128_S1x128x128_1_2
            (shapeCast S128x128 (extractStridedSlice S1x1x128x128 ![1, 2, 0, 0] (wts4 (wts V0))
              slices_S5x5x128x128_S1x1x128x128_1_2_0_0) shapeCasts_S1x1x128x128_S128x128))) := by
  unfold val1
  simp only [ops0]
  after_results_simp
  simp only [val0_arg0, val0_arg1]
  all_goals (try simp only [TRef.ofBuf, TRef.toBuf, cast_eq])
  all_goals rfl

/-- The device's buffer contents after the first 2 windows. -/
def val2 : Valuation τ sig (Elt F) := after (ops1 (F := F)) (val1 V0)
/-- The buffers that window 1's operations write. -/
abbrev ops1_W : List (Ref sig .tc) := [main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117]
set_option maxRecDepth 8192 in
theorem ops1_writes : (ops1 : List (HloOp τ sig (Elt F))).Forall fun op =>
    op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 1 does not write keeps its contents through it. -/
theorem val2_keep (r : Ref sig .tc) (h : r ∉ ops1_W) :
    val2 V0 (Proc.devRef .tc r) = val1 V0 (Proc.devRef .tc r) :=
  after_of_writes_sub ops1 _ ops1_writes h
theorem val2_arg0 : val2 V0 (no_index (Proc.devRef .tc main_arg0)) = img V0 :=
  (val2_keep V0 main_arg0 (by decide)).trans (val1_arg0 V0)
theorem val2_arg1 : val2 V0 (no_index (Proc.devRef .tc main_arg1)) = wts V0 :=
  (val2_keep V0 main_arg1 (by decide)).trans (val1_arg1 V0)
theorem val2_arg2 : val2 V0 (no_index (Proc.devRef .tc main_arg2)) = stp V0 :=
  (val2_keep V0 main_arg2 (by decide)).trans (val1_arg2 V0)
theorem val2_v0 : val2 V0 (no_index (Proc.devRef .tc main_v0)) = bordered (img V0) :=
  (val2_keep V0 main_v0 (by decide)).trans (val1_v0 V0)
theorem val2_v1 : val2 V0 (no_index (Proc.devRef .tc main_v1)) = wts4 (wts V0) :=
  (val2_keep V0 main_v1 (by decide)).trans (val1_v1 V0)

set_option maxRecDepth 8192 in
set_option maxHeartbeats 2000000 in
/-- After the second window the sum holds sixteen taps, -/
theorem val2_v114 : val2 V0 (no_index (Proc.devRef .tc main_v114)) = sumTo 16 (img V0) (wts V0) := by
  unfold val2
  simp only [ops1]
  after_results_simp
  simp only [val1_v0, val1_v1, val1_v51, val1_v57]
  all_goals (try simp only [TRef.ofBuf, TRef.toBuf, cast_eq])
  all_goals rfl
set_option maxRecDepth 8192 in
set_option maxHeartbeats 2000000 in
/-- the seventeenth tap's shifted window of the bordered image waits, -/
theorem val2_v115 : val2 V0 (no_index (Proc.devRef .tc main_v115))
    = extractStridedSlice S256x128x128 ![0, 3, 1] (bordered (img V0)) slices_S256x132x132_S256x128x128_0_3_1 := by
  unfold val2
  simp only [ops1]
  after_results_simp
  simp only [val1_v0]
  all_goals (try simp only [TRef.ofBuf, TRef.toBuf, cast_eq])
  all_goals rfl
set_option maxRecDepth 8192 in
set_option maxHeartbeats 2000000 in
/-- and so does its plane of weights. -/
theorem val2_v117 : val2 V0 (no_index (Proc.devRef .tc main_v117))
    = shapeCast S128x128 (extractStridedSlice S1x1x128x128 ![3, 1, 0, 0] (wts4 (wts V0))
        slices_S5x5x128x128_S1x1x128x128_3_1_0_0) shapeCasts_S1x1x128x128_S128x128 := by
  unfold val2
  simp only [ops1]
  after_results_simp
  simp only [val1_v1]
  all_goals (try simp only [TRef.ofBuf, TRef.toBuf, cast_eq])
  all_goals rfl

/-- The device's buffer contents after the first 3 windows. -/
def val3 : Valuation τ sig (Elt F) := after (ops2 (F := F)) (val2 V0)
/-- The buffers that window 2's operations write. -/
abbrev ops2_W : List (Ref sig .tc) := [main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177]
set_option maxRecDepth 8192 in
theorem ops2_writes : (ops2 : List (HloOp τ sig (Elt F))).Forall fun op =>
    op.writes ⊆ (ops2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 2 does not write keeps its contents through it. -/
theorem val3_keep (r : Ref sig .tc) (h : r ∉ ops2_W) :
    val3 V0 (Proc.devRef .tc r) = val2 V0 (Proc.devRef .tc r) :=
  after_of_writes_sub ops2 _ ops2_writes h
theorem val3_arg0 : val3 V0 (no_index (Proc.devRef .tc main_arg0)) = img V0 :=
  (val3_keep V0 main_arg0 (by decide)).trans (val2_arg0 V0)
theorem val3_arg1 : val3 V0 (no_index (Proc.devRef .tc main_arg1)) = wts V0 :=
  (val3_keep V0 main_arg1 (by decide)).trans (val2_arg1 V0)
theorem val3_arg2 : val3 V0 (no_index (Proc.devRef .tc main_arg2)) = stp V0 :=
  (val3_keep V0 main_arg2 (by decide)).trans (val2_arg2 V0)

set_option maxRecDepth 8192 in
set_option maxHeartbeats 2000000 in
/-- After the third window the sum holds all 25 taps. -/
theorem val3_v177 : val3 V0 (no_index (Proc.devRef .tc main_v177)) = sumTo 25 (img V0) (wts V0) := by
  unfold val3
  simp only [ops2]
  after_results_simp
  simp only [val2_v0, val2_v1, val2_v114, val2_v115, val2_v117]
  all_goals (try simp only [TRef.ofBuf, TRef.toBuf, cast_eq])
  all_goals rfl

/-- The device's buffer contents after the first 4 windows. -/
def val4 : Valuation τ sig (Elt F) := after (ops3 (F := F)) (val3 V0)
/-- The buffers that window 3's operations write. -/
abbrev ops3_W : List (Ref sig .tc) := [main_v178, main_v179, main_v180, main_v181, main_cst_0, main_v182, main_v183]
set_option maxRecDepth 8192 in
theorem ops3_writes : (ops3 : List (HloOp τ sig (Elt F))).Forall fun op =>
    op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 3 does not write keeps its contents through it. -/
theorem val4_keep (r : Ref sig .tc) (h : r ∉ ops3_W) :
    val4 V0 (Proc.devRef .tc r) = val3 V0 (Proc.devRef .tc r) :=
  after_of_writes_sub ops3 _ ops3_writes h
theorem val4_arg0 : val4 V0 (no_index (Proc.devRef .tc main_arg0)) = img V0 :=
  (val4_keep V0 main_arg0 (by decide)).trans (val3_arg0 V0)
theorem val4_arg1 : val4 V0 (no_index (Proc.devRef .tc main_arg1)) = wts V0 :=
  (val4_keep V0 main_arg1 (by decide)).trans (val3_arg1 V0)
theorem val4_arg2 : val4 V0 (no_index (Proc.devRef .tc main_arg2)) = stp V0 :=
  (val4_keep V0 main_arg2 (by decide)).trans (val3_arg2 V0)

set_option maxRecDepth 8192 in
/-- After the last window the result buffer holds `result`. -/
theorem val4_v183 : val4 V0 (no_index (Proc.devRef .tc main_v183)) = result (img V0) (wts V0) (stp V0) := by
  unfold val4
  simp only [ops3]
  after_results_simp
  simp only [val3_v177, val3_arg0, val3_arg2]
  all_goals (try simp only [TRef.ofBuf, TRef.toBuf, cast_eq])
  all_goals rfl

/-- The four windows' contents, one after the other, are the whole line's. -/
theorem after_ops : after (ops (F := F)) V0 = val4 V0 := by
  simp only [ops, StableHlo.after_append]
  rfl

end Windows

/-! ## The run -/

/-- THE HOST PROGRAM'S RUN: from any memory with zero counters every weakly fair execution of @main terminates, the
    result buffer at `update` of the launched image (with its border), weights and steps, the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v183)
          = update (m ((c.tc : Thread nD τ).loc main_arg0)) (bordered (F := Ideal) (m ((c.tc : Thread nD τ).loc main_arg0)))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v183).trans (by rw [after_ops, val4_v183, result_eq]),
       (h c main_arg0).trans (by rw [after_ops, val4_arg0]),
       (h c main_arg1).trans (by rw [after_ops, val4_arg1]),
       (h c main_arg2).trans (by rw [after_ops, val4_arg2])⟩)
    (run_seq scopedRefs_eq scopedSems_eq defs main (fun _ => ops) main_eq (fun _ => ops_sub) m ρ (fun _ => ops_fresh))

end Cert.Stencil.HostRun

end
-- ==== Proof.lean ====
/-
  A position-dependent 5 × 5 stencil step: the kernel program and the host program compute the same image.

  Both programs take an image `f` of 256 planes of 128 × 128 pixels, 25 weights for every pixel of a plane and one time
  step per plane; both border every plane with two rows and columns of a constant, and both compute, pixel by pixel,

      out b i j = max (f b i j + (Σ_{n = 5 d + e} P b (i + d) (j + e) · K n (128 i + j)) · dt b) 0

  with `P` the bordered image, the 25 products added one after the other onto a zero in the order `n = 0, …, 24`.  That
  function is `Cert.Stencil.update` (Stencil.lean).  The kernel program computes it 64 planes at a grid point, loading the
  weights a plane at a time (Block.lean: what one block holds; Array.lean: the four blocks are the array, and the run);
  the host program computes it over whole images with slices and repeats (HostOps.lean, HostRun.lean: its run, read window
  by window).  Because both sides perform the same additions in the same order, the two results are equal term for term
  on the extended reals: no sum is regrouped, no product distributed, and the finiteness of the inputs is never used.

  The three frames: the two kernel programs' are the generated frame certificates; the host program's is its run with the
  result forgotten.  The idealized kernel program is the kernel program's own text (no rewrite was applied), so
  `preserves` is `True`.
-/
import proofs.«145319_j87746181857881_1_alg».proof.Defs
import proofs.«145319_j87746181857881_1_alg».proof.Proof.Gen.Kernel
import proofs.«145319_j87746181857881_1_alg».proof.Proof.Gen.Kernel.Skeleton
import proofs.«145319_j87746181857881_1_alg».proof.Proof.Gen.Kernel.Launch
import proofs.«145319_j87746181857881_1_alg».proof.Proof.Gen.Kernel.Points
import proofs.«145319_j87746181857881_1_alg».proof.Proof.Gen.Kernel.Frame
import proofs.«145319_j87746181857881_1_alg».proof.Proof.Gen.KernelIdeal
import proofs.«145319_j87746181857881_1_alg».proof.Proof.Gen.KernelIdeal.Skeleton
import proofs.«145319_j87746181857881_1_alg».proof.Proof.Gen.KernelIdeal.Launch
import proofs.«145319_j87746181857881_1_alg».proof.Proof.Gen.KernelIdeal.Points
import proofs.«145319_j87746181857881_1_alg».proof.Proof.Gen.KernelIdeal.Frame
import proofs.«145319_j87746181857881_1_alg».proof.Proof.Gen.ReferenceIdeal
import proofs.«145319_j87746181857881_1_alg».proof.Proof.Gen.Pre_finite_inputs
import proofs.«145319_j87746181857881_1_alg».proof.Proof.Array
import proofs.«145319_j87746181857881_1_alg».proof.Proof.HostRun
import Idealize.ShloMosaic.Adequacy
import Idealize.ShloMosaic.Init

noncomputable section

namespace Cert.Proof

open Idealize.ShloMosaic Idealize.ShloMosaic.TcCoe Idealize.SL.Sem

/-- The kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The host program runs and leaves its arguments alone: its run, the result forgotten. -/
theorem frame_referenceIdeal : Cert.frame_ReferenceIdeal := fun m ρ _ =>
  (θ_run Cert.ReferenceIdeal.defs _ _).mono (fun _ h c => (h c).2) (Cert.Stencil.HostRun.run m ρ)

/-- From memories that agree on the image, the weights and the steps, the kernel program's result array and the host
    program's both end at `update` of them — the border built by the same operation on both sides. -/
theorem algebraic : Cert.algebraic_KernelIdeal_ReferenceIdeal := by
  intro m ρ m' ρ' _ hagree
  refine ⟨fun c => Cert.Stencil.Array.G m c, Cert.Stencil.Array.run m ρ, ?_⟩
  refine (θ_run Cert.ReferenceIdeal.defs _ _).mono (fun _ h c => ⟨(h c).1.trans ?_, (h c).2⟩)
    (Cert.Stencil.HostRun.run m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
